-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S100000x1 : Shape := ⟨2, ![100000, 1]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256 .f32) (main_arg6 : FVec F S256x128 .f32) (main_arg7 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S400000x128 .f32) (main_arg1 : IVec S100000x1 32) (main_arg2 : FVec F S128x256 .f32) (main_arg3 : FVec F S256 .f32) (main_arg4 : FVec F S256x256 .f32) (main_arg5 : FVec F S256 .f32) (main_arg6 : FVec F S256x128 .f32) (main_arg7 : FVec F S128 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S400000x128 : Shape := ⟨2, ![400000, 128]⟩
abbrev S100000x1 : Shape := ⟨2, ![100000, 1]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S100000 : Shape := ⟨1, ![100000]⟩
abbrev S_ : Shape := ⟨0, ![]⟩
abbrev S102400 : Shape := ⟨1, ![102400]⟩
abbrev S102400x1 : Shape := ⟨2, ![102400, 1]⟩
abbrev S102400x128 : Shape := ⟨2, ![102400, 128]⟩
abbrev S1x256 : Shape := ⟨2, ![1, 256]⟩
abbrev S1x128 : Shape := ⟨2, ![1, 128]⟩
abbrev S4096x128 : Shape := ⟨2, ![4096, 128]⟩
abbrev S4096x256 : Shape := ⟨2, ![4096, 256]⟩

abbrev nBuf : Space → Nat
  | .hbm => 40
  | .vmem => 10
  | .smem => 0
  | _ => 0

abbrev bufTy : (tb : Table) → Fin (tcTables nBuf tb) → BufTy
  | .hbm, ⟨0, _⟩ => ⟨S400000x128, .f32⟩
  | .hbm, ⟨1, _⟩ => ⟨S100000x1, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S100000, .i32⟩
  | .hbm, ⟨9, _⟩ => ⟨S_, .i32⟩
  | .hbm, ⟨10, _⟩ => ⟨S_, .i32⟩
  | .hbm, ⟨11, _⟩ => ⟨S102400, .i32⟩
  | .hbm, ⟨12, _⟩ => ⟨S_, .i32⟩
  | .hbm, ⟨13, _⟩ => ⟨S_, .i32⟩
  | .hbm, ⟨14, _⟩ => ⟨S102400, .i32⟩
  | .hbm, ⟨15, _⟩ => ⟨S_, .i32⟩
  | .hbm, ⟨16, _⟩ => ⟨S102400, .i32⟩
  | .hbm, ⟨17, _⟩ => ⟨S102400, .i1⟩
  | .hbm, ⟨18, _⟩ => ⟨S_, .i32⟩
  | .hbm, ⟨19, _⟩ => ⟨S102400, .i32⟩
  | .hbm, ⟨20, _⟩ => ⟨S102400, .i32⟩
  | .hbm, ⟨21, _⟩ => ⟨S102400, .i32⟩
  | .hbm, ⟨22, _⟩ => ⟨S102400x1, .i32⟩
  | .hbm, ⟨23, _⟩ => ⟨S102400x128, .f32⟩
  | .hbm, ⟨24, _⟩ => ⟨S128x256, .bf16⟩
  | .hbm, ⟨25, _⟩ => ⟨S256x256, .bf16⟩
  | .hbm, ⟨26, _⟩ => ⟨S256x128, .bf16⟩
  | .hbm, ⟨27, _⟩ => ⟨S1x256, .f32⟩
  | .hbm, ⟨28, _⟩ => ⟨S1x256, .f32⟩
  | .hbm, ⟨29, _⟩ => ⟨S1x128, .f32⟩
  | .hbm, ⟨30, _⟩ => ⟨S102400x128, .f32⟩
  | .hbm, ⟨31, _⟩ => ⟨S_, .i32⟩
  | .hbm, ⟨32, _⟩ => ⟨S102400, .i32⟩
  | .hbm, ⟨33, _⟩ => ⟨S102400, .i1⟩
  | .hbm, ⟨34, _⟩ => ⟨S_, .i32⟩
  | .hbm, ⟨35, _⟩ => ⟨S102400, .i32⟩
  | .hbm, ⟨36, _⟩ => ⟨S102400, .i32⟩
  | .hbm, ⟨37, _⟩ => ⟨S102400, .i32⟩
  | .hbm, ⟨38, _⟩ => ⟨S102400x1, .i32⟩
  | .hbm, ⟨39, _⟩ => ⟨S400000x128, .f32⟩
  | .local _ .vmem, ⟨0, _⟩ => ⟨S4096x128, .f32⟩
  | .local _ .vmem, ⟨1, _⟩ => ⟨S4096x128, .f32⟩
  | .local _ .vmem, ⟨2, _⟩ => ⟨S128x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x128, .bf16⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_c : Ref sig .tc := ⟨.hbm, 9, rfl⟩
abbrev main_call0_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_call1_v0 : Ref sig .tc := ⟨.hbm, 13, rfl⟩
abbrev main_call0_v2 : Ref sig .tc := ⟨.hbm, 14, rfl⟩
abbrev main_call0_c_1 : Ref sig .tc := ⟨.hbm, 15, rfl⟩
abbrev main_call0_v3 : Ref sig .tc := ⟨.hbm, 16, rfl⟩
abbrev main_call0_v4 : Ref sig .tc := ⟨.hbm, 17, rfl⟩
abbrev main_call0_c_2 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_c_3 : Ref sig .tc := ⟨.hbm, 31, rfl⟩
abbrev main_call0_v17 : Ref sig .tc := ⟨.hbm, 32, rfl⟩
abbrev main_call0_v18 : Ref sig .tc := ⟨.hbm, 33, rfl⟩
abbrev main_call0_c_4 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_v0 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S100000x1_S100000 : S100000x1.ShapeCasts S100000
  pads_S100000_S102400_024000 : S100000.Pads (![0] : Fin 1 → Nat) ![2400] ![0] S102400
  h_S_ : 0 < S_.numel
  bcast_S_S102400 : S_.BroadcastsInDim S102400 (![] : Fin 0 → Fin S102400.rank)
  bcast_S102400_S102400x1_0 : S102400.BroadcastsInDim S102400x1 (![0] : Fin 1 → Fin S102400x1.rank)
  bitsLt_bf16_f32 : FTy.bits .bf16 < FTy.bits .f32
  shapeCasts_S256_S1x256 : S256.ShapeCasts S1x256
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  gather_S400000x128_S102400x1_S102400x128_1_0_n_n_0_1_1128_wf : GatherDims.WF S400000x128 S102400x1 S102400x128 [1] [0] [] [0] [] 1 ![1, 128]
  scatter_S400000x128_S102400x1_S102400x128_1_0_0_1_wf : ScatterDims.WF S400000x128 S102400x1 S102400x128 [1] [0] [0] 1
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S102400x128.size a
  hwx0_7 : ∀ i : grid0.Coords, EltTy.bits .f32 = 32 ∨ (Rect.block (s := S102400x128) S4096x128.size (cc0_transform_7 i) (hinb0_7 i)).WholeWords (EltTy.packing .f32)

variable [Facts₀]

def gather_S400000x128_S102400x1_S102400x128_1_0_n_n_0_1_1128 : GatherDims S400000x128 S102400x1 S102400x128 where
  offsetDims := [1]
  collapsedSliceDims := [0]
  operandBatchingDims := []
  startIndicesBatchingDims := []
  startIndexMap := [0]
  indexVectorDim := 1
  sliceSizes := ![1, 128]
  wf := gather_S400000x128_S102400x1_S102400x128_1_0_n_n_0_1_1128_wf
def scatter_S400000x128_S102400x1_S102400x128_1_0_0_1 : ScatterDims S400000x128 S102400x1 S102400x128 where
  updateWindowDims := [1]
  insertedWindowDims := [0]
  scatterDimsToOperandDims := [0]
  indexVectorDim := 1
  wf := scatter_S400000x128_S102400x1_S102400x128_1_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_call0_v9) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v14) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v12) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v16) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S400000x128 : Shape := ⟨2, ![400000, 128]⟩
abbrev S100000x1 : Shape := ⟨2, ![100000, 1]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S100000 : Shape := ⟨1, ![100000]⟩
abbrev S_ : Shape := ⟨0, ![]⟩
abbrev S100000x128 : Shape := ⟨2, ![100000, 128]⟩
abbrev S100000x256 : Shape := ⟨2, ![100000, 256]⟩
abbrev S1x256 : Shape := ⟨2, ![1, 256]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S100000x1, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S100000, .i32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S100000x128, .f32⟩
  | .hbm, ⟨18, _⟩ => ⟨S100000x256, .f32⟩
  | .hbm, ⟨19, _⟩ => ⟨S1x256, .f32⟩
  | .hbm, ⟨20, _⟩ => ⟨S100000x256, .f32⟩
  | .hbm, ⟨21, _⟩ => ⟨S100000x256, .f32⟩
  | .hbm, ⟨22, _⟩ => ⟨S_, .f32⟩
  | .hbm, ⟨23, _⟩ => ⟨S100000x256, .f32⟩
  | .hbm, ⟨24, _⟩ => ⟨S100000x256, .i1⟩
  | .hbm, ⟨25, _⟩ => ⟨S_, .f32⟩
  | .hbm, ⟨26, _⟩ => ⟨S100000x256, .f32⟩
  | .hbm, ⟨27, _⟩ => ⟨S100000x256, .i1⟩
  | .hbm, ⟨28, _⟩ => ⟨S_, .f32⟩
  | .hbm, ⟨29, _⟩ => ⟨S_, .f32⟩
  | .hbm, ⟨30, _⟩ => ⟨S100000x256, .f32⟩
  | .hbm, ⟨31, _⟩ => ⟨S100000x256, .f32⟩
  | .hbm, ⟨32, _⟩ => ⟨S100000x256, .f32⟩
  | .hbm, ⟨33, _⟩ => ⟨S_, .f32⟩
  | .hbm, ⟨34, _⟩ => ⟨S100000x256, .f32⟩
  | .hbm, ⟨35, _⟩ => ⟨S100000x256, .f32⟩
  | .hbm, ⟨36, _⟩ => ⟨S100000x256, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | .hbm, ⟨41, _⟩ => ⟨S_, .f32⟩
  | .hbm, ⟨42, _⟩ => ⟨S100000x256, .f32⟩
  | .hbm, ⟨43, _⟩ => ⟨S100000x256, .i1⟩
  | .hbm, ⟨44, _⟩ => ⟨S_, .f32⟩
  | .hbm, ⟨45, _⟩ => ⟨S100000x256, .f32⟩
  | .hbm, ⟨46, _⟩ => ⟨S100000x256, .i1⟩
  | .hbm, ⟨47, _⟩ => ⟨S_, .f32⟩
  | .hbm, ⟨48, _⟩ => ⟨S_, .f32⟩
  | .hbm, ⟨49, _⟩ => ⟨S100000x256, .f32⟩
  | .hbm, ⟨50, _⟩ => ⟨S100000x256, .f32⟩
  | .hbm, ⟨51, _⟩ => ⟨S100000x256, .f32⟩
  | .hbm, ⟨52, _⟩ => ⟨S_, .f32⟩
  | .hbm, ⟨53, _⟩ => ⟨S100000x256, .f32⟩
  | .hbm, ⟨54, _⟩ => ⟨S100000x256, .f32⟩
  | .hbm, ⟨55, _⟩ => ⟨S100000x256, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .i1⟩
  | .hbm, ⟨63, _⟩ => ⟨S_, .f32⟩
  | .hbm, ⟨64, _⟩ => ⟨S100000x128, .f32⟩
  | .hbm, ⟨65, _⟩ => ⟨S100000x128, .i1⟩
  | .hbm, ⟨66, _⟩ => ⟨S_, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S400000x128, .f32⟩
  | .hbm, ⟨77, _⟩ => ⟨S_, .i32⟩
  | .hbm, ⟨78, _⟩ => ⟨S100000, .i32⟩
  | .hbm, ⟨79, _⟩ => ⟨S100000, .i1⟩
  | .hbm, ⟨80, _⟩ => ⟨S_, .i32⟩
  | .hbm, ⟨81, _⟩ => ⟨S100000, .i32⟩
  | .hbm, ⟨82, _⟩ => ⟨S100000, .i32⟩
  | .hbm, ⟨83, _⟩ => ⟨S100000, .i32⟩
  | .hbm, ⟨84, _⟩ => ⟨S100000x1, .i32⟩
  | .hbm, ⟨85, _⟩ => ⟨S400000x128, .f32⟩
  | .hbm, ⟨86, _⟩ => ⟨S400000x128, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_cst_1 : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_v4 : Ref sig .tc := ⟨.hbm, 31, rfl⟩
abbrev main_call0_v5 : Ref sig .tc := ⟨.hbm, 32, rfl⟩
abbrev main_call0_cst_2 : Ref sig .tc := ⟨.hbm, 33, rfl⟩
abbrev main_call0_v6 : Ref sig .tc := ⟨.hbm, 34, rfl⟩
abbrev main_call0_v7 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_cst_0 : Ref sig .tc := ⟨.hbm, 44, rfl⟩
abbrev main_call1_v2 : Ref sig .tc := ⟨.hbm, 45, rfl⟩
abbrev main_call1_v3 : Ref sig .tc := ⟨.hbm, 46, rfl⟩
abbrev main_call1_cst_1 : Ref sig .tc := ⟨.hbm, 47, rfl⟩
abbrev main_call1_call0_v0 : Ref sig .tc := ⟨.hbm, 48, rfl⟩
abbrev main_call1_call0_v1 : Ref sig .tc := ⟨.hbm, 49, rfl⟩
abbrev main_call1_v4 : Ref sig .tc := ⟨.hbm, 50, rfl⟩
abbrev main_call1_v5 : Ref sig .tc := ⟨.hbm, 51, rfl⟩
abbrev main_call1_cst_2 : Ref sig .tc := ⟨.hbm, 52, rfl⟩
abbrev main_call1_v6 : Ref sig .tc := ⟨.hbm, 53, rfl⟩
abbrev main_call1_v7 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_cst_0 : Ref sig .tc := ⟨.hbm, 63, rfl⟩
abbrev main_call2_v2 : Ref sig .tc := ⟨.hbm, 64, rfl⟩
abbrev main_call2_v3 : Ref sig .tc := ⟨.hbm, 65, rfl⟩
abbrev main_call2_cst_1 : Ref sig .tc := ⟨.hbm, 66, rfl⟩
abbrev main_call2_call0_v0 : Ref sig .tc := ⟨.hbm, 67, rfl⟩
abbrev main_call2_call0_v1 : Ref sig .tc := ⟨.hbm, 68, rfl⟩
abbrev main_call2_v4 : Ref sig .tc := ⟨.hbm, 69, rfl⟩
abbrev main_call2_v5 : Ref sig .tc := ⟨.hbm, 70, rfl⟩
abbrev main_call2_cst_2 : Ref sig .tc := ⟨.hbm, 71, rfl⟩
abbrev main_call2_v6 : Ref sig .tc := ⟨.hbm, 72, rfl⟩
abbrev main_call2_v7 : Ref sig .tc := ⟨.hbm, 73, rfl⟩
abbrev main_v22 : Ref sig .tc := ⟨.hbm, 74, rfl⟩
abbrev main_cst : Ref sig .tc := ⟨.hbm, 75, rfl⟩
abbrev main_v23 : Ref sig .tc := ⟨.hbm, 76, rfl⟩
abbrev main_c_1 : Ref sig .tc := ⟨.hbm, 77, rfl⟩
abbrev main_v24 : Ref sig .tc := ⟨.hbm, 78, rfl⟩
abbrev main_v25 : Ref sig .tc := ⟨.hbm, 79, rfl⟩
abbrev main_c_2 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩

abbrev nD : Nat := 1
abbrev τ : Topo := Topo.v7x

variable {F : FTy → Type} [FloatOps F]

class Facts₀ : Prop where
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S400000x128 : S_.BroadcastsInDim S400000x128 (![] : Fin 0 → Fin S400000x128.rank)
  gather_S400000x128_S100000x1_S100000x128_1_0_n_n_0_1_1128_wf : GatherDims.WF S400000x128 S100000x1 S100000x128 [1] [0] [] [0] [] 1 ![1, 128]
  dot_S100000x128_S128x256_S100000x256_1_0_0_1_n_n_wf : DotDims.WF S100000x128 S128x256 S100000x256 [1] [0] [0] [1] [] []
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []
  scatter_S400000x128_S100000x1_S100000x128_1_0_0_1_wf : ScatterDims.WF S400000x128 S100000x1 S100000x128 [1] [0] [0] 1

variable [Facts₀]

def gather_S400000x128_S100000x1_S100000x128_1_0_n_n_0_1_1128 : GatherDims S400000x128 S100000x1 S100000x128 where
  offsetDims := [1]
  collapsedSliceDims := [0]
  operandBatchingDims := []
  startIndicesBatchingDims := []
  startIndexMap := [0]
  indexVectorDim := 1
  sliceSizes := ![1, 128]
  wf := gather_S400000x128_S100000x1_S100000x128_1_0_n_n_0_1_1128_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S400000x128_S100000x1_S100000x128_1_0_0_1 : ScatterDims S400000x128 S100000x1 S100000x128 where
  updateWindowDims := [1]
  insertedWindowDims := [0]
  scatterDimsToOperandDims := [0]
  indexVectorDim := 1
  wf := scatter_S400000x128_S100000x1_S100000x128_1_0_0_1_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Spec.lean ====
/-
  The function both programs compute, written once over coordinates.

  A selected row `a ∈ EReal^128` of the table goes through three dense layers, each `a ↦ elu (a · W + b)` with
  `elu v = v` for `v > 0` and `eᵛ − 1` otherwise (`dense`, `mlp`); selection index `s` is first normalised
  (`wrap`: a negative index counts from the end of the 400000 rows), the row read is the normalised index clamped
  into the table, and the layers' output row is added to the table at the normalised index when that is a row of
  the table. `result` is the table after all 100000 selections: entry `(a, b)` is the table's entry plus the sum,
  over the selections that land on row `a`, of entry `b` of their output rows.
-/
import Idealize.ShloMosaic.PureOps.Ideal
import Idealize.ShloMosaic.Lib.ValueIdx
import proofs.«430074_j23562190586024_3_alg».proof.Proof.LibRowDims

noncomputable section

open scoped BigOperators

namespace Cert.Spec

open Idealize.ShloMosaic Idealize.ShloMosaic.ValueIdx Idealize.ShloMosaic.RowDims

/-- ELU with unit slope constant on the extended reals. -/
def elu (v : EReal) : EReal := Scalar.select (Ideal.cmp .ogt v 0) v (Ideal.exp v - 1)

/-- One dense layer on a row: `j ↦ elu (Σₖ aₖ · W k j + b j)`. -/
def dense {K n : Nat} (W : Fin K → Fin n → EReal) (b : Fin n → EReal) (a : Fin K → EReal) : Fin n → EReal :=
  fun j => elu ((∑ k : Fin K, a k * W k j) + b j)

/-- The three layers 128 → 256 → 256 → 128 on a row. -/
def mlp (W0 : Fin 128 → Fin 256 → EReal) (b0 : Fin 256 → EReal) (W1 : Fin 256 → Fin 256 → EReal) (b1 : Fin 256 → EReal)
    (W2 : Fin 256 → Fin 128 → EReal) (b2 : Fin 128 → EReal) (a : Fin 128 → EReal) : Fin 128 → EReal :=
  dense W2 b2 (dense W1 b1 (dense W0 b0 a))

/-- A selection index normalised: a negative one counts from the end of the 400000 rows. -/
def wrap (v : BitVec 32) : BitVec 32 := Scalar.select (IntOp.cmpi .slt v 0#32) (IntOp.addi v 400000#32) v

/-- The table row a normalised selection index reads. -/
def rowOf (v : BitVec 32) : Fin 400000 := clampRow 400000 (by decide) v

/-- The weights and biases as functions of coordinates. -/
abbrev mat {K n : Nat} (W : (⟨2, ![K, n]⟩ : Shape).Idx → EReal) : Fin K → Fin n → EReal := fun k j => W (ix2 k j)
abbrev vec {n : Nat} (b : (⟨1, ![n]⟩ : Shape).Idx → EReal) : Fin n → EReal := fun j => b (ix1 j)

/-- Output row of selection `r`: the three layers on the table row it reads. -/
def upRow (x : (⟨2, ![400000, 128]⟩ : Shape).Idx → EReal) (W0 : (⟨2, ![128, 256]⟩ : Shape).Idx → EReal)
    (b0 : (⟨1, ![256]⟩ : Shape).Idx → EReal) (W1 : (⟨2, ![256, 256]⟩ : Shape).Idx → EReal) (b1 : (⟨1, ![256]⟩ : Shape).Idx → EReal)
    (W2 : (⟨2, ![256, 128]⟩ : Shape).Idx → EReal) (b2 : (⟨1, ![128]⟩ : Shape).Idx → EReal) (s : BitVec 32) : Fin 128 → EReal :=
  mlp (mat W0) (vec b0) (mat W1) (vec b1) (mat W2) (vec b2) (fun k => x (ix2 (rowOf s) k))

/-- The table after all selections, entry `(a, b)`. -/
def resultAt (x : (⟨2, ![400000, 128]⟩ : Shape).Idx → EReal) (sel : (⟨2, ![100000, 1]⟩ : Shape).Idx → BitVec 32)
    (W0 : (⟨2, ![128, 256]⟩ : Shape).Idx → EReal)
    (b0 : (⟨1, ![256]⟩ : Shape).Idx → EReal) (W1 : (⟨2, ![256, 256]⟩ : Shape).Idx → EReal) (b1 : (⟨1, ![256]⟩ : Shape).Idx → EReal)
    (W2 : (⟨2, ![256, 128]⟩ : Shape).Idx → EReal) (b2 : (⟨1, ![128]⟩ : Shape).Idx → EReal) (a : Fin 400000) (b : Fin 128) : EReal :=
  x (ix2 a b) + ∑ r : Fin 100000,
    if (wrap (sel (ix2 r 0))).toInt = (a.val : Int) then upRow x W0 b0 W1 b1 W2 b2 (wrap (sel (ix2 r 0))) b else 0

/-- The table after all selections, as an array. -/
def result (x : (⟨2, ![400000, 128]⟩ : Shape).Idx → EReal) (sel : (⟨2, ![100000, 1]⟩ : Shape).Idx → BitVec 32)
    (W0 : (⟨2, ![128, 256]⟩ : Shape).Idx → EReal)
    (b0 : (⟨1, ![256]⟩ : Shape).Idx → EReal) (W1 : (⟨2, ![256, 256]⟩ : Shape).Idx → EReal) (b1 : (⟨1, ![256]⟩ : Shape).Idx → EReal)
    (W2 : (⟨2, ![256, 128]⟩ : Shape).Idx → EReal) (b2 : (⟨1, ![128]⟩ : Shape).Idx → EReal) :
    (⟨2, ![400000, 128]⟩ : Shape).Idx → EReal :=
  fun i => resultAt x sel W0 b0 W1 b1 W2 b2 (i 0) (i 1)

theorem result_apply (x : (⟨2, ![400000, 128]⟩ : Shape).Idx → EReal) (sel : (⟨2, ![100000, 1]⟩ : Shape).Idx → BitVec 32)
    (W0 : (⟨2, ![128, 256]⟩ : Shape).Idx → EReal)
    (b0 : (⟨1, ![256]⟩ : Shape).Idx → EReal) (W1 : (⟨2, ![256, 256]⟩ : Shape).Idx → EReal) (b1 : (⟨1, ![256]⟩ : Shape).Idx → EReal)
    (W2 : (⟨2, ![256, 128]⟩ : Shape).Idx → EReal) (b2 : (⟨1, ![128]⟩ : Shape).Idx → EReal) (a : Fin 400000) (b : Fin 128) :
    result x sel W0 b0 W1 b1 W2 b2 (ix2 a b) = resultAt x sel W0 b0 W1 b1 W2 b2 a b := rfl

end Cert.Spec

end
-- ==== Proof.KBlock.lean ====
/-
  What one grid point of the kernel computes, entry by entry.

  The body reads a block of 4096 rows of width 128, three weight matrices and three bias rows, and writes
  three dense layers of the rows: each layer rounds its input to the narrow format (the identity on the
  extended reals), multiplies by the weight matrix into a zero accumulator (a sum over the contracted
  coordinate), adds the bias row broadcast over the 4096 rows, and applies ELU: v for v > 0, e^v - 1
  otherwise. Read at entry (p, q) the block written is the three layers of row p of the block read, at q.
-/
import proofs.«430074_j23562190586024_3_alg».proof.Proof.Gen.KernelIdeal.Frame
import proofs.«430074_j23562190586024_3_alg».proof.Proof.Spec
import proofs.«430074_j23562190586024_3_alg».proof.Proof.LibRowDims
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.KernelIdeal.Block

open Idealize.ShloMosaic Idealize.ShloMosaic.ValueIdx Idealize.ShloMosaic.RowDims
open Cert.KernelIdeal Cert.KernelIdeal.Gen

/-! ## One layer, as the body spells it -/

/-- The activation as the body spells it: a select on "v > 0" between v and e^v - 1, the constants 0 and 1 given by
    their words. -/
def act {s : Shape} (v : FVec Ideal s .f32) : FVec Ideal s .f32 :=
  select (cmpf .ogt v (broadcast s (Scalar.ofBits (F := Ideal) .f32 0x00000000#32))) v
    (subf (exp v) (broadcast s (Scalar.ofBits (F := Ideal) .f32 0x3F800000#32)))

/-- The activation at an index is ELU of the element. -/
theorem act_apply {s : Shape} (v : FVec Ideal s .f32) (i : s.Idx) : act v i = Cert.Spec.elu (v i) := by
  show Scalar.select (Ideal.cmp .ogt (v i) (Ideal.ofBits .f32 0x00000000#32)) (v i)
      (Ideal.exp (v i) - Ideal.ofBits .f32 0x3F800000#32) = _
  rw [Ideal.ofBits_zero_f32, Ideal.ofBits_one_f32]
  rfl

/-- The affine part of a layer as the body spells it: the input rounded to the narrow format, times the weights into the
    zero accumulator, plus the bias row broadcast over the rows. -/
def pre {K N : Nat} (D : DotDims ⟨2, ![4096, K]⟩ ⟨2, ![K, N]⟩ ⟨2, ![4096, N]⟩)
    (hlt : FTy.bits .bf16 < FTy.bits .f32) (hW : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![4096, N]⟩)
    (a : FVec Ideal ⟨2, ![4096, K]⟩ .f32) (W : FVec Ideal ⟨2, ![K, N]⟩ .bf16) (b : FVec Ideal ⟨2, ![1, N]⟩ .f32) :
    FVec Ideal ⟨2, ![4096, N]⟩ .f32 :=
  addf (matmul D none (truncf .bf16 a hlt) (shapeCast ⟨2, ![K, N]⟩ W hW) (constant ⟨2, ![4096, N]⟩ .f32 0x00000000#32))
    (broadcastTo ⟨2, ![4096, N]⟩ (shapeCast ⟨2, ![1, N]⟩ b hb) hbc)

/-- The affine part at entry (p, q): the sum over the contracted coordinate of row p of the input times column q of the
    weights, plus the bias at q. -/
theorem pre_apply {K N : Nat} (D : DotDims ⟨2, ![4096, K]⟩ ⟨2, ![K, N]⟩ ⟨2, ![4096, N]⟩) (hD : D = DotDims.plain 4096 K N)
    (hlt : FTy.bits .bf16 < FTy.bits .f32) (hW : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![4096, N]⟩)
    (a : FVec Ideal ⟨2, ![4096, K]⟩ .f32) (W : FVec Ideal ⟨2, ![K, N]⟩ .bf16) (b : FVec Ideal ⟨2, ![1, N]⟩ .f32)
    (p : Fin 4096) (q : Fin N) :
    pre D hlt hW hb hbc a W b (ix2 p q) = (∑ k : Fin K, a (ix2 p k) * W (ix2 k q)) + b (ix2 (0 : Fin 1) q) := by
  subst hD
  unfold pre
  rw [shapeCast_self, shapeCast_self, addf_apply, broadcastTo_1b_ab_apply]
  refine congrArg (· + b (ix2 (0 : Fin 1) q)) ?_
  exact matmul_plain_zero_apply none (truncf .bf16 a hlt) W p q

/-- One layer at entry (p, q) is the dense layer of row p of the input, at q. -/
theorem layer_apply {K N : Nat} (D : DotDims ⟨2, ![4096, K]⟩ ⟨2, ![K, N]⟩ ⟨2, ![4096, N]⟩) (hD : D = DotDims.plain 4096 K N)
    (hlt : FTy.bits .bf16 < FTy.bits .f32) (hW : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![4096, N]⟩)
    (a : FVec Ideal ⟨2, ![4096, K]⟩ .f32) (W : FVec Ideal ⟨2, ![K, N]⟩ .bf16) (b : FVec Ideal ⟨2, ![1, N]⟩ .f32)
    (p : Fin 4096) (q : Fin N) :
    act (pre D hlt hW hb hbc a W b) (ix2 p q)
      = Cert.Spec.dense (Cert.Spec.mat W) (fun j => b (ix2 (0 : Fin 1) j)) (fun k => a (ix2 p k)) q := by
  rw [act_apply, pre_apply D hD]
  rfl

/-! ## The body's payload is three layers -/

/-- The three contractions' dimension numbers are the plain ones. -/
theorem dot1_eq : dot_S4096x128_S128x256_S4096x256_1_0_0_1_n_n = DotDims.plain 4096 128 256 := rfl
theorem dot2_eq : dot_S4096x256_S256x256_S4096x256_1_0_0_1_n_n = DotDims.plain 4096 256 256 := rfl
theorem dot3_eq : dot_S4096x256_S256x128_S4096x128_1_0_0_1_n_n = DotDims.plain 4096 256 128 := rfl

/-- The stored value, from the values loaded: three layers, the first on the block of rows itself. -/
theorem pay_eq (v0 : Vec Ideal S4096x128 .f32) (v3 : Vec Ideal S128x256 .bf16) (v6 : Vec Ideal S1x256 .f32)
    (v17 : Vec Ideal S256x256 .bf16) (v20 : Vec Ideal S1x256 .f32) (v31 : Vec Ideal S256x128 .bf16) (v34 : Vec Ideal S1x128 .f32) :
    k0_pay1 (F := Ideal) (k0_pay2 v0 v3 v6 v17 v20 v31 v34)
      = act (pre dot_S4096x256_S256x128_S4096x128_1_0_0_1_n_n bitsLt_bf16_f32 shapeCasts_S256x128_S256x128 shapeCasts_S1x128_S1x128 broadcasts_S1x128_S4096x128
          (act (pre dot_S4096x256_S256x256_S4096x256_1_0_0_1_n_n bitsLt_bf16_f32 shapeCasts_S256x256_S256x256 shapeCasts_S1x256_S1x256 broadcasts_S1x256_S4096x256
            (act (pre dot_S4096x128_S128x256_S4096x256_1_0_0_1_n_n bitsLt_bf16_f32 shapeCasts_S128x256_S128x256 shapeCasts_S1x256_S1x256 broadcasts_S1x256_S4096x256
              (shapeCast S4096x128 v0 shapeCasts_S4096x128_S4096x128) v3 v6))
            v17 v20))
          v31 v34) := rfl

/-! ## The block written, entry by entry -/

theorem offsets_zero : (![0, 0] : Fin 2 → Nat) = fun _ => 0 := funext fun a => by fin_cases a <;> rfl

/-- Entry (p, q) of the block the body writes is the three layers of row p of the block it reads, at q. -/
theorem out0_7_apply (x0 : Vec Ideal S4096x128 .f32) (x1 : Vec Ideal S128x256 .bf16) (x2 : Vec Ideal S1x256 .f32)
    (x3 : Vec Ideal S256x256 .bf16) (x4 : Vec Ideal S1x256 .f32) (x5 : Vec Ideal S256x128 .bf16) (x6 : Vec Ideal S1x128 .f32)
    (p : Fin 4096) (q : Fin 128) :
    Cert.KernelIdeal.Gen.out0_7 (F := Ideal) x0 x1 x2 x3 x4 x5 x6 (ix2 p q)
      = Cert.Spec.mlp (Cert.Spec.mat x1) (fun j => x2 (ix2 0 j)) (Cert.Spec.mat x3) (fun j => x4 (ix2 0 j))
          (Cert.Spec.mat x5) (fun j => x6 (ix2 0 j)) (fun k => x0 (ix2 p k)) q := by
  unfold out0_7
  rw [View.canon_unit_zero offsets_zero]
  simp only [View.ld_unit_zero (S := S4096x128) offsets_zero, View.ld_unit_zero (S := S128x256) offsets_zero,
    View.ld_unit_zero (S := S1x256) offsets_zero, View.ld_unit_zero (S := S256x256) offsets_zero,
    View.ld_unit_zero (S := S256x128) offsets_zero, View.ld_unit_zero (S := S1x128) offsets_zero]
  rw [pay_eq, shapeCast_self]
  rw [layer_apply _ dot3_eq]
  unfold Cert.Spec.mlp
  refine congrArg (fun r => Cert.Spec.dense (Cert.Spec.mat x5) (fun j => x6 (ix2 (0 : Fin 1) j)) r q) ?_
  funext k
  rw [layer_apply _ dot2_eq]
  refine congrArg (fun r => Cert.Spec.dense (Cert.Spec.mat x3) (fun j => x4 (ix2 (0 : Fin 1) j)) r k) ?_
  funext k'
  exact layer_apply _ dot1_eq _ _ _ _ x0 x1 x2 p k'

end Cert.KernelIdeal.Block

end
-- ==== Proof.KArray.lean ====
/-
  The array the region leaves: every one of the 102400 gathered rows through the three dense layers.

  Grid point `t` reads rows `4096·t … 4096·t + 4095` of the gathered table and the whole weight and bias arrays, and
  writes the same rows of the output; one point's block is the layers applied row by row, so the 25 blocks, which
  tile the output, are the restrictions of one whole-array function `rows`.
-/
import proofs.«430074_j23562190586024_3_alg».proof.Proof.Gen.KernelIdeal.Frame
import proofs.«430074_j23562190586024_3_alg».proof.Proof.Spec
import proofs.«430074_j23562190586024_3_alg».proof.Proof.KBlock
import Idealize.ShloMosaic.Lib.Pipeline.Value
import Idealize.ShloMosaic.Lib.ValueIdx

set_option maxRecDepth 16384

noncomputable section

open scoped BigOperators

namespace Cert.KernelIdeal.Arr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- Entry `(r, q)` of the region's output: the layers on gathered row `r`, with the biases as `[1, n]` arrays. -/
def rowsAt (xg : S102400x128.Idx → EReal) (w0 : S128x256.Idx → EReal) (c0 : S1x256.Idx → EReal)
    (w1 : S256x256.Idx → EReal) (c1 : S1x256.Idx → EReal) (w2 : S256x128.Idx → EReal) (c2 : S1x128.Idx → EReal)
    (r : Fin 102400) (q : Fin 128) : EReal :=
  Cert.Spec.mlp (Cert.Spec.mat w0) (fun j => c0 (ix2 0 j)) (Cert.Spec.mat w1) (fun j => c1 (ix2 0 j))
    (Cert.Spec.mat w2) (fun j => c2 (ix2 0 j)) (fun k => xg (ix2 r k)) q

/-- The region's output as an array. -/
def rows (xg : S102400x128.Idx → EReal) (w0 : S128x256.Idx → EReal) (c0 : S1x256.Idx → EReal)
    (w1 : S256x256.Idx → EReal) (c1 : S1x256.Idx → EReal) (w2 : S256x128.Idx → EReal) (c2 : S1x128.Idx → EReal) :
    S102400x128.Idx → EReal :=
  fun i => rowsAt xg w0 c0 w1 c1 w2 c2 (i 0) (i 1)

theorem rows_apply (xg : S102400x128.Idx → EReal) (w0 : S128x256.Idx → EReal) (c0 : S1x256.Idx → EReal)
    (w1 : S256x256.Idx → EReal) (c1 : S1x256.Idx → EReal) (w2 : S256x128.Idx → EReal) (c2 : S1x128.Idx → EReal)
    (r : Fin 102400) (q : Fin 128) : rows xg w0 c0 w1 c1 w2 c2 (ix2 r q) = rowsAt xg w0 c0 w1 c1 w2 c2 r q := rfl

/-- The printed index maps over the 25 points: the row block of the gathered table moves with the output's, and
    every weight and bias window stays at block `(0, 0)`. -/
theorem idx_facts : ∀ t : Fin cfg0.N, win0_0.index t (0 : Fin 2) = win0_7.index t (0 : Fin 2)
    ∧ win0_0.index t (1 : Fin 2) = 0 ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val :=
  (by decide +kernel : ∀ t : Fin grid0.N, _)

/-- Row `p` of point `t`'s block is row `4096·t + p` of the array. -/
def rowAt (t : Fin cfg0.N) (p : Fin 4096) : Fin 102400 :=
  ⟨t.val * 4096 + p.val, by have := t.isLt; have h : cfg0.N = 25 := N_0; have := p.isLt; omega⟩

/-- The output window's block at point `t` sits at rows `4096·t …`, all columns. -/
theorem emb7 (c : Dev nD) (t : Fin cfg0.N) (p : Fin 4096) (q : Fin 128) :
    ((cfg0.win 7).blk t).view.emb (ix2 p q) = (ix2 (rowAt t p) q : S102400x128.Idx) := by
  obtain ⟨e0, e1, e2, -, -, -, -, -, -, -, -, -, -, -, -, e7⟩ := idx_facts t
  funext a; apply Fin.ext
  match a with
  | ⟨0, _⟩ => show win0_7.index t (0 : Fin 2) * 4096 + 1 * p.val = t.val * 4096 + p.val; omega
  | ⟨1, _⟩ => show win0_7.index t (1 : Fin 2) * 128 + 1 * q.val = q.val; omega

/-- Any array read through the output window's block at point `t`: entry `(p, q)` of the block is entry
    `(4096·t + p, q)` of the array. -/
theorem read7 (c : Dev nD) (t : Fin cfg0.N) (G : S102400x128.Idx → EReal) (p : Fin 4096) (q : Fin 128) :
    ((cfg0.win 7).blk t).view.read (Elt Ideal) G (ix2 p q) = G (ix2 (rowAt t p) q) := by
  show G (((cfg0.win 7).blk t).view.emb (ix2 p q)) = _
  rw [emb7 c t p q]

/-- The gathered table's block at point `t` is the same rows of it. -/
theorem iblk0 (c : Dev nD) (t : Fin cfg0.N) (p : Fin 4096) (k : Fin 128) :
    iblk m c 0 t (ix2 p k) = V m c main_call0_v9 (ix2 (rowAt t p) k) := by
  show V m c main_call0_v9 (((cfg0.win 0).blk t).view.emb (ix2 p k)) = V m c main_call0_v9 (ix2 (rowAt t p) k)
  refine congrArg _ ?_
  obtain ⟨e0, e1, e2, -, -, -, -, -, -, -, -, -, -, -, -, e7⟩ := idx_facts t
  funext a; apply Fin.ext
  match a with
  | ⟨0, _⟩ => show win0_0.index t (0 : Fin 2) * 4096 + 1 * p.val = t.val * 4096 + p.val; omega
  | ⟨1, _⟩ => show win0_0.index t (1 : Fin 2) * 128 + 1 * k.val = k.val; omega

/-- Each weight and bias window's block is its whole array, at every point. -/
theorem iblk1 (c : Dev nD) (t : Fin cfg0.N) (y : S128x256.Idx) : iblk m c 1 t y = V m c main_call0_v10 y := by
  show V m c main_call0_v10 (((cfg0.win 1).blk t).view.emb y) = V m c main_call0_v10 y
  refine congrArg _ ?_
  obtain ⟨-, -, -, e0, e1, -⟩ := idx_facts t
  funext a; apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega
theorem iblk2 (c : Dev nD) (t : Fin cfg0.N) (y : S1x256.Idx) : iblk m c 2 t y = V m c main_call0_v13 y := by
  show V m c main_call0_v13 (((cfg0.win 2).blk t).view.emb y) = V m c main_call0_v13 y
  refine congrArg _ ?_
  obtain ⟨-, -, -, -, -, e0, e1, -⟩ := idx_facts t
  funext a; apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega
theorem iblk3 (c : Dev nD) (t : Fin cfg0.N) (y : S256x256.Idx) : iblk m c 3 t y = V m c main_call0_v11 y := by
  show V m c main_call0_v11 (((cfg0.win 3).blk t).view.emb y) = V m c main_call0_v11 y
  refine congrArg _ ?_
  obtain ⟨-, -, -, -, -, -, -, e0, e1, -⟩ := idx_facts t
  funext a; apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega
theorem iblk4 (c : Dev nD) (t : Fin cfg0.N) (y : S1x256.Idx) : iblk m c 4 t y = V m c main_call0_v14 y := by
  show V m c main_call0_v14 (((cfg0.win 4).blk t).view.emb y) = V m c main_call0_v14 y
  refine congrArg _ ?_
  obtain ⟨-, -, -, -, -, -, -, -, -, e0, e1, -⟩ := idx_facts t
  funext a; apply Fin.ext
  match a with
  | ⟨0, _⟩ => show win0_4.index t (0 : Fin 2) * 1 + 1 * (y 0).val = (y 0).val; omega
  | ⟨1, _⟩ => show win0_4.index t (1 : Fin 2) * 256 + 1 * (y 1).val = (y 1).val; omega
theorem iblk5 (c : Dev nD) (t : Fin cfg0.N) (y : S256x128.Idx) : iblk m c 5 t y = V m c main_call0_v12 y := by
  show V m c main_call0_v12 (((cfg0.win 5).blk t).view.emb y) = V m c main_call0_v12 y
  refine congrArg _ ?_
  obtain ⟨-, -, -, -, -, -, -, -, -, -, -, e0, e1, -⟩ := idx_facts t
  funext a; apply Fin.ext
  match a with
  | ⟨0, _⟩ => show win0_5.index t (0 : Fin 2) * 256 + 1 * (y 0).val = (y 0).val; omega
  | ⟨1, _⟩ => show win0_5.index t (1 : Fin 2) * 128 + 1 * (y 1).val = (y 1).val; omega
theorem iblk6 (c : Dev nD) (t : Fin cfg0.N) (y : S1x128.Idx) : iblk m c 6 t y = V m c main_call0_v15 y := by
  show V m c main_call0_v15 (((cfg0.win 6).blk t).view.emb y) = V m c main_call0_v15 y
  refine congrArg _ ?_
  obtain ⟨-, -, -, -, -, -, -, -, -, -, -, -, -, e0, e1, -⟩ := idx_facts t
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- What point `t` writes back is block `t` of `rows` of the arrays as the region finds them. -/
theorem flushed_eq (c : Dev nD) (t : Fin cfg0.N) :
    (dats m 0 c).flushed 7 t = ((cfg0.win 7).blk t).view.read (Elt Ideal)
      (rows (V m c main_call0_v9) (V m c main_call0_v10) (V m c main_call0_v13) (V m c main_call0_v11)
        (V m c main_call0_v14) (V m c main_call0_v12) (V m c main_call0_v15)) := by
  show (cfg0.win 7).cut (grid0.coords t) ((dats m 0 c).after 7 t) = _
  rw [after0_7]
  funext j
  obtain ⟨p, q, rfl⟩ : ∃ (p : Fin 4096) (q : Fin 128), j = ix2 p q := ⟨j 0, j 1, eq_ix2 j⟩
  show out0_7 _ _ _ _ _ _ _ ((cfg0.win 7).xinj (grid0.coords t) (ix2 p q)) = _
  have hx : (cfg0.win 7).xinj (grid0.coords t) (ix2 p q) = (ix2 p q : S4096x128.Idx) := by
    funext a; apply Fin.ext
    match a with
    | ⟨0, _⟩ => rfl
    | ⟨1, _⟩ => rfl
  rw [hx, read7 c t _ p q, rows_apply]
  refine (Cert.KernelIdeal.Block.out0_7_apply (iblk m c 0 t) (iblk m c 1 t) (iblk m c 2 t) (iblk m c 3 t) (iblk m c 4 t) (iblk m c 5 t) (iblk m c 6 t) p q).trans ?_
  unfold rowsAt
  rw [show (fun k => iblk m c 0 t (ix2 p k)) = (fun k => V m c main_call0_v9 (ix2 (rowAt t p) k)) from funext fun k => iblk0 m c t p k,
    show iblk m c 1 t = V m c main_call0_v10 from funext fun y => iblk1 m c t y,
    show iblk m c 2 t = V m c main_call0_v13 from funext fun y => iblk2 m c t y,
    show iblk m c 3 t = V m c main_call0_v11 from funext fun y => iblk3 m c t y,
    show iblk m c 4 t = V m c main_call0_v14 from funext fun y => iblk4 m c t y,
    show iblk m c 5 t = V m c main_call0_v12 from funext fun y => iblk5 m c t y,
    show iblk m c 6 t = V m c main_call0_v15 from funext fun y => iblk6 m c t y]

/-- An index of the output array is in point `t`'s block iff each coordinate is in the block's range on its axis. -/
theorem mem_blk (t : Fin cfg0.N) (i : S102400x128.Idx) :
    i ∈ ((cfg0.win 7).blk t).view.set ↔ ∀ a : Fin 2, win0_7.index t a * S4096x128.size a ≤ (i a).val
      ∧ (i a).val < win0_7.index t a * S4096x128.size a + S4096x128.size a := by
  show i ∈ ((View.whole main_call0_v16).slice (win0_7.rect t)).set ↔ _
  rw [View.set_slice_whole, Rect.mem_set_unit]
  exact Iff.rfl

/-- The 25 blocks tile the output: row `r` lies in the block of point `r / 4096`. -/
theorem cover (i : S102400x128.Idx) :
    ∃ t : Fin cfg0.N, (cfg0.win 7).flush t = true ∧ i ∈ ((cfg0.win 7).blk t).view.set := by
  have hi0 : (i 0).val < 102400 := (i 0).isLt
  have hi1 : (i 1).val < 128 := (i 1).isLt
  have ht : (i 0).val / 4096 < cfg0.N := by
    have hN : grid0.N = 25 := N_0
    show (i 0).val / 4096 < grid0.N
    omega
  refine ⟨⟨(i 0).val / 4096, ht⟩, flush0_7 _, ?_⟩
  rw [mem_blk]
  obtain ⟨-, -, e2, -, -, -, -, -, -, -, -, -, -, -, -, e7⟩ := idx_facts ⟨(i 0).val / 4096, ht⟩
  have e7' : win0_7.index ⟨(i 0).val / 4096, ht⟩ (0 : Fin 2) = (i 0).val / 4096 := e7
  intro a
  match a with
  | ⟨0, _⟩ =>
    show win0_7.index ⟨(i 0).val / 4096, ht⟩ (0 : Fin 2) * 4096 ≤ (i 0).val
      ∧ (i 0).val < win0_7.index ⟨(i 0).val / 4096, ht⟩ (0 : Fin 2) * 4096 + 4096
    omega
  | ⟨1, _⟩ =>
    show win0_7.index ⟨(i 0).val / 4096, ht⟩ (1 : Fin 2) * 128 ≤ (i 1).val
      ∧ (i 1).val < win0_7.index ⟨(i 0).val / 4096, ht⟩ (1 : Fin 2) * 128 + 128
    omega

/-- The output array after the region: `rows` of the arrays as the region finds them. -/
theorem final (c : Dev nD) :
    (dats m 0 c).arrAt 7 cfg0.N = rows (V m c main_call0_v9) (V m c main_call0_v10) (V m c main_call0_v13)
      (V m c main_call0_v11) (V m c main_call0_v14) (V m c main_call0_v12) (V m c main_call0_v15) :=
  (dats m 0 c).arrAt_eq_of_cover 7 _ (fun t _ => flushed_eq m c t) cover

end Cert.KernelIdeal.Arr

end
-- ==== Proof.KDefs.lean ====
/-
  The two index arrays the kernel's program builds from the 100000 selection indices before it gathers and
  scatters: the indices padded to 102400 entries — with `0` for the gather, so that the 2400 extra rows read row 0 of
  the table, and with `400000`, one past the last row, for the scatter — and then normalised entry by entry (a
  negative index counts from the end of the table's 400000 rows).
-/
import proofs.«430074_j23562190586024_3_alg».proof.KernelIdeal
import proofs.«430074_j23562190586024_3_alg».proof.Proof.Gen.KernelIdeal

noncomputable section

namespace Cert.KernelIdeal.Host

open Idealize.ShloMosaic Cert.KernelIdeal
open Cert.KernelIdeal.Facts₀

/-- The selection indices as a flat array. -/
def flat (sel : IVec S100000x1 32) : IVec S100000 32 := shapeCast S100000 sel shapeCasts_S100000x1_S100000

/-- The flat indices padded with `v` to 102400 entries. -/
def padTo (v : BitVec 32) (sel : IVec S100000x1 32) : IVec S102400 32 :=
  pad S102400 ![0] ![2400] ![0] (flat sel) (id (constantI S_ 32 v)) pads_S100000_S102400_024000 h_S_

/-- Every entry normalised, as a `[102400, 1]` array of start indices. -/
def wrapAll (x : IVec S102400 32) : IVec S102400x1 32 :=
  broadcastInDim S102400x1 ![0] bcast_S102400_S102400x1_0
    (select (cmpi .slt x (broadcastInDim S102400 ![] bcast_S_S102400 (constantI S_ 32 0#32)))
      (addi x (broadcastInDim S102400 ![] bcast_S_S102400 (constantI S_ 32 400000#32))) x)

/-- The gather's start indices. -/
def gatherIdx (sel : IVec S100000x1 32) : IVec S102400x1 32 := wrapAll (padTo 0#32 sel)

/-- The scatter's start indices. -/
def scatterIdx (sel : IVec S100000x1 32) : IVec S102400x1 32 := wrapAll (padTo 400000#32 sel)

/-- Selection `r` as one of the 102400 padded rows. -/
def lift (r : Fin 100000) : Fin 102400 := ⟨r.val, by have := r.isLt; omega⟩

end Cert.KernelIdeal.Host

end
-- ==== Proof.KHost.lean ====
/-
  What the region finds in its arrays: the host lines before it gather the 102400 padded rows, narrow the three
  weight matrices (the identity on extended reals) and view each bias as a one-row matrix; the padded scatter
  indices are prepared there too.
-/
import proofs.«430074_j23562190586024_3_alg».proof.Proof.Gen.KernelIdeal.Frame
import proofs.«430074_j23562190586024_3_alg».proof.Proof.KDefs
import Idealize.ShloMosaic.Lib.StableHlo.Run
import Idealize.ShloMosaic.PureOps.Ideal

set_option maxRecDepth 16384

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ)

theorem V_v9 (c : Dev nD) : V m c main_call0_v9
    = Host.gather gather_S400000x128_S102400x1_S102400x128_1_0_n_n_0_1_1128 (m ((c : Thread nD τ).loc main_arg0))
        (gatherIdx (m ((c : Thread nD τ).loc main_arg1))) := by
  show StableHlo.after hostOps0 (fun b => m (c, b)) (Proc.devRef .tc main_call0_v9) = _
  after_results
  rfl

theorem V_v2 (c : Dev nD) : V m c main_call0_v2 = padTo 400000#32 (m ((c : Thread nD τ).loc main_arg1)) := by
  show StableHlo.after hostOps0 (fun b => m (c, b)) (Proc.devRef .tc main_call0_v2) = _
  after_results
  rfl

theorem V_v10 (c : Dev nD) : V m c main_call0_v10 = (truncf (F := Ideal) (s := S128x256) (φ := .f32) .bf16 (m ((c : Thread nD τ).loc main_arg2)) Facts₀.bitsLt_bf16_f32 : FVec Ideal S128x256 .bf16) := by
  show StableHlo.after hostOps0 (fun b => m (c, b)) (Proc.devRef .tc main_call0_v10) = _
  after_results
  rfl

theorem V_v11 (c : Dev nD) : V m c main_call0_v11 = (truncf (F := Ideal) (s := S256x256) (φ := .f32) .bf16 (m ((c : Thread nD τ).loc main_arg4)) Facts₀.bitsLt_bf16_f32 : FVec Ideal S256x256 .bf16) := by
  show StableHlo.after hostOps0 (fun b => m (c, b)) (Proc.devRef .tc main_call0_v11) = _
  after_results
  rfl

theorem V_v12 (c : Dev nD) : V m c main_call0_v12 = (truncf (F := Ideal) (s := S256x128) (φ := .f32) .bf16 (m ((c : Thread nD τ).loc main_arg6)) Facts₀.bitsLt_bf16_f32 : FVec Ideal S256x128 .bf16) := by
  show StableHlo.after hostOps0 (fun b => m (c, b)) (Proc.devRef .tc main_call0_v12) = _
  after_results
  rfl

theorem V_v13 (c : Dev nD) : V m c main_call0_v13 = shapeCast S1x256 (m ((c : Thread nD τ).loc main_arg3)) Facts₀.shapeCasts_S256_S1x256 := by
  show StableHlo.after hostOps0 (fun b => m (c, b)) (Proc.devRef .tc main_call0_v13) = _
  after_results
  rfl

theorem V_v14 (c : Dev nD) : V m c main_call0_v14 = shapeCast S1x256 (m ((c : Thread nD τ).loc main_arg5)) Facts₀.shapeCasts_S256_S1x256 := by
  show StableHlo.after hostOps0 (fun b => m (c, b)) (Proc.devRef .tc main_call0_v14) = _
  after_results
  rfl

theorem V_v15 (c : Dev nD) : V m c main_call0_v15 = shapeCast S1x128 (m ((c : Thread nD τ).loc main_arg7)) Facts₀.shapeCasts_S128_S1x128 := by
  show StableHlo.after hostOps0 (fun b => m (c, b)) (Proc.devRef .tc main_call0_v15) = _
  after_results
  rfl

end Cert.KernelIdeal.Host

end
-- ==== Proof.KOut.lean ====
/-
  The kernel program's result as one function of its eight arguments: the scatter-add, at the padded and normalised
  scatter indices, of the layers' output on the 102400 gathered rows, into the table itself.
-/
import proofs.«430074_j23562190586024_3_alg».proof.Proof.KArray
import proofs.«430074_j23562190586024_3_alg».proof.Proof.KDefs

noncomputable section

namespace Cert.KernelIdeal.Out

open Idealize.ShloMosaic Cert.KernelIdeal
open Cert.KernelIdeal.Facts₀

/-- The rows the program gathers: the table at the gather's start indices. -/
def gathered (x : S400000x128.Idx → EReal) (sel : IVec S100000x1 32) : S102400x128.Idx → EReal :=
  Host.gather gather_S400000x128_S102400x1_S102400x128_1_0_n_n_0_1_1128 x (Cert.KernelIdeal.Host.gatherIdx sel)

/-- The region's output on them, with the weights narrowed and the biases viewed as one-row matrices. -/
def updates (x : S400000x128.Idx → EReal) (sel : IVec S100000x1 32) (W0 : S128x256.Idx → EReal) (b0 : S256.Idx → EReal)
    (W1 : S256x256.Idx → EReal) (b1 : S256.Idx → EReal) (W2 : S256x128.Idx → EReal) (b2 : S128.Idx → EReal) :
    S102400x128.Idx → EReal :=
  Cert.KernelIdeal.Arr.rows (gathered x sel)
    (truncf (F := Ideal) (φ := .f32) .bf16 W0 bitsLt_bf16_f32) (shapeCast S1x256 b0 shapeCasts_S256_S1x256)
    (truncf (F := Ideal) (φ := .f32) .bf16 W1 bitsLt_bf16_f32) (shapeCast S1x256 b1 shapeCasts_S256_S1x256)
    (truncf (F := Ideal) (φ := .f32) .bf16 W2 bitsLt_bf16_f32) (shapeCast S1x128 b2 shapeCasts_S128_S1x128)

/-- The program's result. -/
def kernelOut (x : S400000x128.Idx → EReal) (sel : IVec S100000x1 32) (W0 : S128x256.Idx → EReal) (b0 : S256.Idx → EReal)
    (W1 : S256x256.Idx → EReal) (b1 : S256.Idx → EReal) (W2 : S256x128.Idx → EReal) (b2 : S128.Idx → EReal) :
    S400000x128.Idx → EReal :=
  Host.scatterAdd (F := Ideal) (φ := .f32) scatter_S400000x128_S102400x1_S102400x128_1_0_0_1 x
    (Cert.KernelIdeal.Host.scatterIdx sel) (updates x sel W0 b0 W1 b1 W2 b2)

end Cert.KernelIdeal.Out

end
-- ==== Proof.KIdx.lean ====
/-
  The two padded index arrays read entry by entry. Entry `r` of either array, for `r` one of the 100000 selections,
  is that selection's index normalised (a negative index counts from the end of the table's 400000 rows); each of the
  2400 extra entries of the scatter's array is `400000`, one past the table's last row, so that its update lands
  nowhere. A sum over the 102400 padded rows whose terms vanish on the extra rows is the sum over the selections.
-/
import proofs.«430074_j23562190586024_3_alg».proof.Proof.KDefs
import proofs.«430074_j23562190586024_3_alg».proof.Proof.Spec
import Idealize.ShloMosaic.Lib.Pipeline.Value
import Idealize.ShloMosaic.Lib.ValueIdx
import Idealize.ShloMosaic.Lib.KernelVsHost

noncomputable section

open scoped BigOperators

namespace Cert.KernelIdeal.Host

open Idealize.ShloMosaic Idealize.ShloMosaic.ValueIdx Cert.KernelIdeal
open Cert.KernelIdeal.Facts₀

/-- The flat array's entry `r` is the selection array's entry `(r, 0)`: the two have the same row-major position. -/
theorem flat_apply (sel : IVec S100000x1 32) (r : Fin 100000) : flat sel (ix1 r) = sel (ix2 r 0) := by
  unfold flat
  refine shapeCast_apply _ _ (ix1 r) (ix2 r (0 : Fin 1)) ?_
  rw [Shape.rowMajor_val_two, Shape.rowMajor_val_one]
  show r.val * 1 + 0 = r.val
  omega

/-- Below 100000 the padded array holds the selection indices. -/
theorem padTo_lift (v : BitVec 32) (sel : IVec S100000x1 32) (r : Fin 100000) :
    padTo v sel (ix1 (lift r)) = sel (ix2 r 0) := by
  unfold padTo
  refine (pad_apply_of_inside _ _ _ _ _ _ _ (ix1 (lift r)) (ix1 r) ?_).trans (flat_apply sel r)
  intro a
  have ha : a = 0 := Subsingleton.elim _ _
  subst ha
  show r.val = 0 + r.val * (0 + 1)
  omega

/-- From 100000 on the padded array holds the padding value. -/
theorem padTo_pad (v : BitVec 32) (sel : IVec S100000x1 32) (r : Fin 102400) (h : 100000 ≤ r.val) :
    padTo v sel (ix1 r) = v := by
  unfold padTo
  refine (pad_apply_of_not_inside _ _ _ _ _ _ _ (ix1 r) (0 : Fin 1) ?_).trans rfl
  intro hin
  have e : (r.val - 0) / (0 + 1) < 100000 := hin.2.2
  omega

/-- The normalised array's entry `(p, 0)` is the normalisation of entry `p`. -/
theorem wrapAll_apply (x : IVec S102400 32) (p : Fin 102400) : wrapAll x (ix2 p 0) = Cert.Spec.wrap (x (ix1 p)) := by
  unfold wrapAll
  refine (broadcastInDim_apply _ _ _ (ix2 p (0 : Fin 1)) (ix1 p) ?_).trans rfl
  intro a
  match a with
  | ⟨0, _⟩ => rfl

/-- The gather's start index of selection `r` is its index normalised. -/
theorem gatherIdx_lift (sel : IVec S100000x1 32) (r : Fin 100000) :
    gatherIdx sel (ix2 (lift r) 0) = Cert.Spec.wrap (sel (ix2 r 0)) := by
  unfold gatherIdx
  rw [wrapAll_apply, padTo_lift]

/-- The scatter's start index of selection `r` is its index normalised. -/
theorem scatterIdx_lift (sel : IVec S100000x1 32) (r : Fin 100000) :
    scatterIdx sel (ix2 (lift r) 0) = Cert.Spec.wrap (sel (ix2 r 0)) := by
  unfold scatterIdx
  rw [wrapAll_apply, padTo_lift]

/-- The scatter's start index of an extra row is `400000`: the padding value is not negative as a signed word, so the
    normalisation leaves it. -/
theorem scatterIdx_pad (sel : IVec S100000x1 32) (r : Fin 102400) (h : 100000 ≤ r.val) :
    (scatterIdx sel (ix2 r 0)).toInt = 400000 := by
  unfold scatterIdx
  rw [wrapAll_apply, padTo_pad _ _ _ h]
  decide

/-- A sum over the padded rows whose terms vanish on the extra rows is the sum over the selections. -/
theorem sum_lift {M : Type*} [AddCommMonoid M] (f : Fin 102400 → M) (h : ∀ r : Fin 102400, 100000 ≤ r.val → f r = 0) :
    ∑ r : Fin 102400, f r = ∑ r : Fin 100000, f (lift r) := by
  have e := @Fin.sum_univ_add M _ 100000 2400 f
  refine e.trans ?_
  have hz : ∑ i : Fin 2400, f (Fin.natAdd 100000 i) = 0 :=
    Finset.sum_eq_zero fun i _ => h _ (Nat.le_add_right 100000 i.val)
  rw [hz, add_zero]
  rfl

end Cert.KernelIdeal.Host

end
-- ==== Proof.KBridge.lean ====
/-
  The kernel program's result, read at one entry, is the specification's entry.

  The program scatter-adds, into the table, the three layers' output on 102400 gathered rows: the 100000 selections
  followed by 2400 padding rows. Read at entry `(a, b)` the scatter-add is the table's entry plus the sum, over the
  rows whose scatter index is `a`, of their update's entry `b`. A padding row scatters at index 400000, which is no
  row of the table, so only the selections remain; selection `r` scatters at its normalised index, and its update is
  the layers on the table row that index reads — the gather reads the clamped row of the same normalised index —,
  with the weights and biases the specification's own: a change of float format is the identity on the extended
  reals, and a bias viewed as a one-row matrix is read in that row.
-/
import proofs.«430074_j23562190586024_3_alg».proof.Proof.KOut
import proofs.«430074_j23562190586024_3_alg».proof.Proof.KIdx
import proofs.«430074_j23562190586024_3_alg».proof.Proof.LibRowDims
import proofs.«430074_j23562190586024_3_alg».proof.Proof.Spec
import Idealize.ShloMosaic.Lib.ValueIdx
import Idealize.ShloMosaic.Lib.ValueLayout

noncomputable section

open scoped BigOperators

namespace Cert.KernelIdeal.Bridge

open Idealize.ShloMosaic Idealize.ShloMosaic.ValueIdx Idealize.ShloMosaic.RowDims
open Cert.KernelIdeal Cert.KernelIdeal.Host Cert.KernelIdeal.Out
open Cert.KernelIdeal.Facts₀

/-- Gathered row `r` of the 100000 selections is the table row its normalised index reads: the gather reads the row
    of its start index clamped into the table, and the start index on that row is the normalised selection index. -/
theorem gathered_lift (x : S400000x128.Idx → EReal) (sel : IVec S100000x1 32) (r : Fin 100000) (k : Fin 128) :
    gathered x sel (ix2 (lift r) k) = x (ix2 (Cert.Spec.rowOf (Cert.Spec.wrap (sel (ix2 r 0)))) k) := by
  show Host.gather (rowGather 400000 128 102400 gather_S400000x128_S102400x1_S102400x128_1_0_n_n_0_1_1128_wf) x
      (gatherIdx sel) (ix2 (lift r) k) = _
  rw [rowGather_apply (by decide), gatherIdx_lift]
  rfl

/-- The update on row `r` of the 100000 selections is the specification's output row of its normalised index: the
    same three layers, on the same table row, with the same weights (a change of format is the identity on the
    extended reals) and the same biases (a vector viewed as a one-row matrix, read in that row). -/
theorem updates_lift (x : S400000x128.Idx → EReal) (sel : IVec S100000x1 32) (W0 : S128x256.Idx → EReal) (b0 : S256.Idx → EReal)
    (W1 : S256x256.Idx → EReal) (b1 : S256.Idx → EReal) (W2 : S256x128.Idx → EReal) (b2 : S128.Idx → EReal)
    (r : Fin 100000) (b : Fin 128) :
    updates x sel W0 b0 W1 b1 W2 b2 (ix2 (lift r) b)
      = Cert.Spec.upRow x W0 b0 W1 b1 W2 b2 (Cert.Spec.wrap (sel (ix2 r 0))) b := by
  have e0 : (fun j : Fin 256 => shapeCast S1x256 b0 shapeCasts_S256_S1x256 (ix2 0 j)) = Cert.Spec.vec b0 :=
    funext fun j => shapeCast_a_1a_apply b0 _ 0 j
  have e1 : (fun j : Fin 256 => shapeCast S1x256 b1 shapeCasts_S256_S1x256 (ix2 0 j)) = Cert.Spec.vec b1 :=
    funext fun j => shapeCast_a_1a_apply b1 _ 0 j
  have e2 : (fun j : Fin 128 => shapeCast S1x128 b2 shapeCasts_S128_S1x128 (ix2 0 j)) = Cert.Spec.vec b2 :=
    funext fun j => shapeCast_a_1a_apply b2 _ 0 j
  have eg : (fun k : Fin 128 => gathered x sel (ix2 (lift r) k))
      = fun k => x (ix2 (Cert.Spec.rowOf (Cert.Spec.wrap (sel (ix2 r 0)))) k) :=
    funext fun k => gathered_lift x sel r k
  show Cert.Spec.mlp (Cert.Spec.mat W0) (fun j : Fin 256 => shapeCast S1x256 b0 shapeCasts_S256_S1x256 (ix2 0 j))
      (Cert.Spec.mat W1) (fun j : Fin 256 => shapeCast S1x256 b1 shapeCasts_S256_S1x256 (ix2 0 j))
      (Cert.Spec.mat W2) (fun j : Fin 128 => shapeCast S1x128 b2 shapeCasts_S128_S1x128 (ix2 0 j))
      (fun k : Fin 128 => gathered x sel (ix2 (lift r) k)) b = _
  rw [e0, e1, e2, eg]
  rfl

/-- The kernel program's result at one entry is the specification's: the table's entry plus, over the selections whose
    normalised index is that row, the entry of their output rows; the 2400 padding rows scatter at index 400000, one
    past the table's last row, and add nothing. -/
theorem kernelOut_apply (x : S400000x128.Idx → EReal) (sel : IVec S100000x1 32) (W0 : S128x256.Idx → EReal) (b0 : S256.Idx → EReal)
    (W1 : S256x256.Idx → EReal) (b1 : S256.Idx → EReal) (W2 : S256x128.Idx → EReal) (b2 : S128.Idx → EReal)
    (a : Fin 400000) (b : Fin 128) :
    Cert.KernelIdeal.Out.kernelOut x sel W0 b0 W1 b1 W2 b2 (ix2 a b) = Cert.Spec.resultAt x sel W0 b0 W1 b1 W2 b2 a b := by
  show Ideal.hostScatterAdd (rowScatter 400000 128 102400 scatter_S400000x128_S102400x1_S102400x128_1_0_0_1_wf) x
      (scatterIdx sel) (updates x sel W0 b0 W1 b1 W2 b2) (ix2 a b) = _
  rw [rowScatterAdd_apply]
  unfold Cert.Spec.resultAt
  refine congrArg (fun t => x (ix2 a b) + t) ?_
  rw [sum_lift]
  · refine Finset.sum_congr rfl fun r _ => ?_
    rw [scatterIdx_lift, updates_lift]
  · intro r hr
    rw [if_neg]
    rw [scatterIdx_pad sel r hr]
    have := a.isLt
    omega

end Cert.KernelIdeal.Bridge

end
-- ==== Proof.KRun.lean ====
/-
  The kernel program's run, read: every weakly fair execution ends with the result buffer at `kernelOut` of the
  eight argument arrays, and with those arrays unchanged. The lines after the region scatter-add the region's
  output array, which is `rows` of what the region found, into the table at the padded scatter indices.
-/
import proofs.«430074_j23562190586024_3_alg».proof.Proof.Gen.KernelIdeal.Frame
import proofs.«430074_j23562190586024_3_alg».proof.Proof.KArray
import proofs.«430074_j23562190586024_3_alg».proof.Proof.KHost
import proofs.«430074_j23562190586024_3_alg».proof.Proof.KOut
import proofs.«430074_j23562190586024_3_alg».proof.Proof.KBridge
import Idealize.ShloMosaic.Lib.StableHlo.Run

set_option maxRecDepth 16384

noncomputable section

namespace Cert.KernelIdeal.Run

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The result buffer after the lines that follow the region. -/
theorem tail (c : Dev nD) :
    Pipeline.afterTail₀ cfgs (dats m) 0 (V0 m) [hostOps1] c main_v0
      = Cert.KernelIdeal.Out.kernelOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  have h16 : Pipeline.withArrays (cfgs 0).spec c (V0 m c) (fun w => (dats m 0 c).arrAt w (cfgs 0).N)
      (Proc.devRef .tc main_call0_v16)
      = Cert.KernelIdeal.Arr.rows (V m c main_call0_v9) (V m c main_call0_v10) (V m c main_call0_v13)
          (V m c main_call0_v11) (V m c main_call0_v14) (V m c main_call0_v12) (V m c main_call0_v15) :=
    (Pipeline.withArrays_arr spec0 launch0.win.arr_inj c _ _ 7).trans (Cert.KernelIdeal.Arr.final m c)
  have h0 : Pipeline.withArrays (cfgs 0).spec c (V0 m c) (fun w => (dats m 0 c).arrAt w (cfgs 0).N)
      (Proc.devRef .tc main_arg0) = m ((c : Thread nD τ).loc main_arg0) :=
    (Pipeline.withArrays_of_ne spec0 c _ _ main_arg0 (by decide)).trans (V_main_arg0 m c)
  have h2 : Pipeline.withArrays (cfgs 0).spec c (V0 m c) (fun w => (dats m 0 c).arrAt w (cfgs 0).N)
      (Proc.devRef .tc main_call0_v2) = Cert.KernelIdeal.Host.padTo 400000#32 (m ((c : Thread nD τ).loc main_arg1)) :=
    (Pipeline.withArrays_of_ne spec0 c _ _ main_call0_v2 (by decide)).trans (Cert.KernelIdeal.Host.V_v2 m c)
  unfold Pipeline.afterTail₀
  show StableHlo.after hostOps1 _ (Proc.devRef .tc main_v0) = _
  after_results
  rw [h16, h0, h2, Cert.KernelIdeal.Host.V_v9, Cert.KernelIdeal.Host.V_v10, Cert.KernelIdeal.Host.V_v11,
    Cert.KernelIdeal.Host.V_v12, Cert.KernelIdeal.Host.V_v13, Cert.KernelIdeal.Host.V_v14, Cert.KernelIdeal.Host.V_v15]
  rfl

/-- The program's result is the spec's table, entry by entry. -/
theorem kernelOut_result (x : S400000x128.Idx → EReal) (sel : IVec S100000x1 32) (W0 : S128x256.Idx → EReal)
    (b0 : S256.Idx → EReal) (W1 : S256x256.Idx → EReal) (b1 : S256.Idx → EReal) (W2 : S256x128.Idx → EReal)
    (b2 : S128.Idx → EReal) :
    Cert.KernelIdeal.Out.kernelOut x sel W0 b0 W1 b1 W2 b2 = Cert.Spec.result x sel W0 b0 W1 b1 W2 b2 := by
  funext i
  obtain ⟨a, b, rfl⟩ : ∃ (a : Fin 400000) (b : Fin 128), i = ix2 a b := ⟨i 0, i 1, eq_ix2 i⟩
  rw [Cert.KernelIdeal.Bridge.kernelOut_apply, Cert.Spec.result_apply]

/-- Every weakly fair execution of the kernel program ends with the result buffer at the spec's table of the
    argument arrays, and with the argument arrays unchanged. -/
theorem run : θ_run (defs (F := Ideal)) (onTc (τ := τ) (main (F := Ideal))) ⟨m, fun _ => 0, ρ⟩ (fun r => ∀ c : Dev nD,
      r.2.mem ((c.tc : Thread nD τ).loc main_v0)
        = Cert.Spec.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  (θ_run defs _ _).mono (fun r h c =>
    ⟨(((h c).2 main_v0 (Pipeline.mem_restRefs_of main_v0 (by decide) (by decide))).trans (tail m c)).trans
        (kernelOut_result _ _ _ _ _ _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Run

end
-- ==== Proof.RefRun.lean ====
/-
  The reference program's run. The reference is a straight line of host operations: a row gather
  `x[sel]` (negative row numbers wrapped by adding the row count), three affine layers `h ↦ h · W + b`, each
  followed by the exponential linear unit `elu h = h` where `h > 0`, `expm1 h` elsewhere, and the scatter-add of
  the last layer's rows back at the same row numbers into a zero array, added to `x`. The unit is written in the
  program as a function of its own that itself calls a selection function twice (once to replace the positive
  entries by zero before `expm1`, so that the exponential is never taken of a large positive number, once to
  choose between `h` and `1 · expm1 …`); a call means the callee's operations on the caller's buffers, so the
  program is the list `ops` of seventy-nine operations: the callees' listed in place at each call.
  Every buffer then ends at the fold of the operations over the launch contents, and the result buffer's fold
  is the one pure term `out` of the eight arguments; the arguments' buffers are written by no operation.
-/
import proofs.«430074_j23562190586024_3_alg».proof.ReferenceIdeal
import proofs.«430074_j23562190586024_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The value -/
/-- The exponential linear unit on a `100000x256` array, operation by operation as the program's function computes
    it: `v` where `v > 0`, elsewhere `1 · expm1 w`, `w` being `v` with its positive entries replaced by zero. -/
def elu256 (v : FVec F S100000x256 .f32) : FVec F S100000x256 .f32 :=
  have cst : FVec F S_ .f32 := constant S_ .f32 0x00000000#32
  have v0 : FVec F S100000x256 .f32 := broadcastInDim S100000x256 ![] bcast_S_S100000x256 cst
  have v1 : IVec S100000x256 1 := cmpf .ogt v v0
  have cst_0 : FVec F S_ .f32 := constant S_ .f32 0x00000000#32
  have v2 : FVec F S100000x256 .f32 := broadcastInDim S100000x256 ![] bcast_S_S100000x256 cst_0
  have v3 : IVec S100000x256 1 := cmpf .ogt v v2
  have cst_1 : FVec F S_ .f32 := constant S_ .f32 0x00000000#32
  have w0 : FVec F S_ .f32 := id cst_1
  have w1 : FVec F S100000x256 .f32 := broadcastInDim S100000x256 ![] bcast_S_S100000x256 w0
  have v4 : FVec F S100000x256 .f32 := select v3 w1 v
  have v5 : FVec F S100000x256 .f32 := Host.expm1 v4
  have cst_2 : FVec F S_ .f32 := constant S_ .f32 0x3F800000#32
  have v6 : FVec F S100000x256 .f32 := broadcastInDim S100000x256 ![] bcast_S_S100000x256 cst_2
  have v7 : FVec F S100000x256 .f32 := mulf v6 v5
  have v8 : FVec F S100000x256 .f32 := select v1 v v7
  v8

/-- The exponential linear unit on a `100000x128` array, operation by operation as the program's function computes
    it: `v` where `v > 0`, elsewhere `1 · expm1 w`, `w` being `v` with its positive entries replaced by zero. -/
def elu128 (v : FVec F S100000x128 .f32) : FVec F S100000x128 .f32 :=
  have cst : FVec F S_ .f32 := constant S_ .f32 0x00000000#32
  have v0 : FVec F S100000x128 .f32 := broadcastInDim S100000x128 ![] bcast_S_S100000x128 cst
  have v1 : IVec S100000x128 1 := cmpf .ogt v v0
  have cst_0 : FVec F S_ .f32 := constant S_ .f32 0x00000000#32
  have v2 : FVec F S100000x128 .f32 := broadcastInDim S100000x128 ![] bcast_S_S100000x128 cst_0
  have v3 : IVec S100000x128 1 := cmpf .ogt v v2
  have cst_1 : FVec F S_ .f32 := constant S_ .f32 0x00000000#32
  have w0 : FVec F S_ .f32 := id cst_1
  have w1 : FVec F S100000x128 .f32 := broadcastInDim S100000x128 ![] bcast_S_S100000x128 w0
  have v4 : FVec F S100000x128 .f32 := select v3 w1 v
  have v5 : FVec F S100000x128 .f32 := Host.expm1 v4
  have cst_2 : FVec F S_ .f32 := constant S_ .f32 0x3F800000#32
  have v6 : FVec F S100000x128 .f32 := broadcastInDim S100000x128 ![] bcast_S_S100000x128 cst_2
  have v7 : FVec F S100000x128 .f32 := mulf v6 v5
  have v8 : FVec F S100000x128 .f32 := select v1 v v7
  v8

/-- The result as one term of the eight arguments, operation by operation in the program's order: the row numbers
    wrapped, the gather, three layers each through the unit, the scatter-add into zeros, the sum with `x`. -/
def out (x : FVec F S400000x128 .f32) (sel : IVec S100000x1 32) (W0 : FVec F S128x256 .f32) (b0 : FVec F S256 .f32)
    (W1 : FVec F S256x256 .f32) (b1 : FVec F S256 .f32) (W2 : FVec F S256x128 .f32) (b2 : FVec F S128 .f32) :
    FVec F S400000x128 .f32 :=
  have v0 : IVec S100000 32 := shapeCast S100000 sel shapeCasts_S100000x1_S100000
  have c : IVec S_ 32 := constantI S_ 32 0#32
  have v1 : IVec S100000 32 := broadcastInDim S100000 ![] bcast_S_S100000 c
  have v2 : IVec S100000 1 := cmpi .slt v0 v1
  have c_0 : IVec S_ 32 := constantI S_ 32 400000#32
  have v3 : IVec S100000 32 := broadcastInDim S100000 ![] bcast_S_S100000 c_0
  have v4 : IVec S100000 32 := addi v0 v3
  have v5 : IVec S100000 32 := select v2 v4 v0
  have v6 : IVec S100000x1 32 := broadcastInDim S100000x1 ![0] bcast_S100000_S100000x1_0 v5
  have v7 : FVec F S100000x128 .f32 := Host.gather gather_S400000x128_S100000x1_S100000x128_1_0_n_n_0_1_1128 x v6
  have v8 : FVec F S100000x256 .f32 := Host.dotGeneral dot_S100000x128_S128x256_S100000x256_1_0_0_1_n_n none v7 W0
  have v9 : FVec F S1x256 .f32 := broadcastInDim S1x256 ![1] bcast_S256_S1x256_1 b0
  have v10 : FVec F S100000x256 .f32 := broadcastInDim S100000x256 ![0, 1] bcast_S1x256_S100000x256_0_1 v9
  have v11 : FVec F S100000x256 .f32 := addf v8 v10
  have v12 : FVec F S100000x256 .f32 := elu256 v11
  have v13 : FVec F S100000x256 .f32 := Host.dotGeneral dot_S100000x256_S256x256_S100000x256_1_0_0_1_n_n none v12 W1
  have v14 : FVec F S1x256 .f32 := broadcastInDim S1x256 ![1] bcast_S256_S1x256_1 b1
  have v15 : FVec F S100000x256 .f32 := broadcastInDim S100000x256 ![0, 1] bcast_S1x256_S100000x256_0_1 v14
  have v16 : FVec F S100000x256 .f32 := addf v13 v15
  have v17 : FVec F S100000x256 .f32 := elu256 v16
  have v18 : FVec F S100000x128 .f32 := Host.dotGeneral dot_S100000x256_S256x128_S100000x128_1_0_0_1_n_n none v17 W2
  have v19 : FVec F S1x128 .f32 := broadcastInDim S1x128 ![1] bcast_S128_S1x128_1 b2
  have v20 : FVec F S100000x128 .f32 := broadcastInDim S100000x128 ![0, 1] bcast_S1x128_S100000x128_0_1 v19
  have v21 : FVec F S100000x128 .f32 := addf v18 v20
  have v22 : FVec F S100000x128 .f32 := elu128 v21
  have cst : FVec F S_ .f32 := constant S_ .f32 0x00000000#32
  have v23 : FVec F S400000x128 .f32 := broadcastInDim S400000x128 ![] bcast_S_S400000x128 cst
  have c_1 : IVec S_ 32 := constantI S_ 32 0#32
  have v24 : IVec S100000 32 := broadcastInDim S100000 ![] bcast_S_S100000 c_1
  have v25 : IVec S100000 1 := cmpi .slt v0 v24
  have c_2 : IVec S_ 32 := constantI S_ 32 400000#32
  have v26 : IVec S100000 32 := broadcastInDim S100000 ![] bcast_S_S100000 c_2
  have v27 : IVec S100000 32 := addi v0 v26
  have v28 : IVec S100000 32 := select v25 v27 v0
  have v29 : IVec S100000x1 32 := broadcastInDim S100000x1 ![0] bcast_S100000_S100000x1_0 v28
  have v30 : FVec F S400000x128 .f32 := Host.scatterAdd scatter_S400000x128_S100000x1_S100000x128_1_0_0_1 v23 v29 v22
  have v31 : FVec F S400000x128 .f32 := addf x v30
  v31

/-! ## The program as a list of operations -/

/-- @main's seventy-nine operations in order, each call replaced by the callee's operations over that call's
    buffers: the unit is fifteen (the zero and its broadcast, the comparison, all three once more for the inner
    selection, whose own three follow — the zero converted to its own type, broadcast, the select —, `expm1`,
    the one and its broadcast, the product, the outer select). -/
abbrev ops : List (HloOp τ sig (Elt F)) :=
  [ reshape main_arg1 main_v0 rfl shapeCasts_S100000x1_S100000,
    nullary main_c (constantI S_ 32 0#32),
    unary main_c main_v1 (broadcastInDim S100000 ![] bcast_S_S100000 : (⟨S_, .i32⟩ : BufTy).Contents (Elt F) → (⟨S100000, .i32⟩ : BufTy).Contents (Elt F)),
    binary main_v0 main_v1 main_v2 (cmpi .slt : (⟨S100000, .i32⟩ : BufTy).Contents (Elt F) → (⟨S100000, .i32⟩ : BufTy).Contents (Elt F) → (⟨S100000, .i1⟩ : BufTy).Contents (Elt F)),
    nullary main_c_0 (constantI S_ 32 400000#32),
    unary main_c_0 main_v3 (broadcastInDim S100000 ![] bcast_S_S100000 : (⟨S_, .i32⟩ : BufTy).Contents (Elt F) → (⟨S100000, .i32⟩ : BufTy).Contents (Elt F)),
    binary main_v0 main_v3 main_v4 (addi : (⟨S100000, .i32⟩ : BufTy).Contents (Elt F) → (⟨S100000, .i32⟩ : BufTy).Contents (Elt F) → (⟨S100000, .i32⟩ : BufTy).Contents (Elt F)),
    ternary main_v2 main_v4 main_v0 main_v5 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v5 main_v6 (broadcastInDim S100000x1 ![0] bcast_S100000_S100000x1_0 : (⟨S100000, .i32⟩ : BufTy).Contents (Elt F) → (⟨S100000x1, .i32⟩ : BufTy).Contents (Elt F)),
    binary main_arg0 main_v6 main_v7 ((fun x i => Host.gather gather_S400000x128_S100000x1_S100000x128_1_0_n_n_0_1_1128 x i) : (⟨S400000x128, .f32⟩ : BufTy).Contents (Elt F) → (⟨S100000x1, .i32⟩ : BufTy).Contents (Elt F) → (⟨S100000x128, .f32⟩ : BufTy).Contents (Elt F)),
    binary main_v7 main_arg2 main_v8 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v9 (broadcastInDim S1x256 ![1] bcast_S256_S1x256_1 : (⟨S256, .f32⟩ : BufTy).Contents (Elt F) → (⟨S1x256, .f32⟩ : BufTy).Contents (Elt F)),
    unary main_v9 main_v10 (broadcastInDim S100000x256 ![0, 1] bcast_S1x256_S100000x256_0_1 : (⟨S1x256, .f32⟩ : BufTy).Contents (Elt F) → (⟨S100000x256, .f32⟩ : BufTy).Contents (Elt F)),
    binary main_v8 main_v10 main_v11 (addf : (⟨S100000x256, .f32⟩ : BufTy).Contents (Elt F) → (⟨S100000x256, .f32⟩ : BufTy).Contents (Elt F) → (⟨S100000x256, .f32⟩ : BufTy).Contents (Elt F)),
    TRef.nullary main_call0.cst (constant S_ .f32 0x00000000#32),
    TRef.unary main_call0.cst main_call0.v0 (broadcastInDim S100000x256 ![] bcast_S_S100000x256),
    TRef.binary (.of main_v11) main_call0.v0 main_call0.v1 (cmpf .ogt),
    TRef.nullary main_call0.cst_0 (constant S_ .f32 0x00000000#32),
    TRef.unary main_call0.cst_0 main_call0.v2 (broadcastInDim S100000x256 ![] bcast_S_S100000x256),
    TRef.binary (.of main_v11) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x256 ![] bcast_S_S100000x256),
    TRef.ternary main_call0.v3 main_call0.call0.v1 (.of main_v11) main_call0.call0.v2 select,
    TRef.unary main_call0.call0.v2 main_call0.v5 Host.expm1,
    TRef.nullary main_call0.cst_2 (constant S_ .f32 0x3F800000#32),
    TRef.unary main_call0.cst_2 main_call0.v6 (broadcastInDim S100000x256 ![] bcast_S_S100000x256),
    TRef.binary main_call0.v6 main_call0.v5 main_call0.v7 mulf,
    TRef.ternary main_call0.v1 (.of main_v11) main_call0.v7 main_call0.call1.v0 select,
    binary main_v12 main_arg4 main_v13 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg5 main_v14 (broadcastInDim S1x256 ![1] bcast_S256_S1x256_1 : (⟨S256, .f32⟩ : BufTy).Contents (Elt F) → (⟨S1x256, .f32⟩ : BufTy).Contents (Elt F)),
    unary main_v14 main_v15 (broadcastInDim S100000x256 ![0, 1] bcast_S1x256_S100000x256_0_1 : (⟨S1x256, .f32⟩ : BufTy).Contents (Elt F) → (⟨S100000x256, .f32⟩ : BufTy).Contents (Elt F)),
    binary main_v13 main_v15 main_v16 (addf : (⟨S100000x256, .f32⟩ : BufTy).Contents (Elt F) → (⟨S100000x256, .f32⟩ : BufTy).Contents (Elt F) → (⟨S100000x256, .f32⟩ : BufTy).Contents (Elt F)),
    TRef.nullary main_call1.cst (constant S_ .f32 0x00000000#32),
    TRef.unary main_call1.cst main_call1.v0 (broadcastInDim S100000x256 ![] bcast_S_S100000x256),
    TRef.binary (.of main_v16) main_call1.v0 main_call1.v1 (cmpf .ogt),
    TRef.nullary main_call1.cst_0 (constant S_ .f32 0x00000000#32),
    TRef.unary main_call1.cst_0 main_call1.v2 (broadcastInDim S100000x256 ![] bcast_S_S100000x256),
    TRef.binary (.of main_v16) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x256 ![] bcast_S_S100000x256),
    TRef.ternary main_call1.v3 main_call1.call0.v1 (.of main_v16) main_call1.call0.v2 select,
    TRef.unary main_call1.call0.v2 main_call1.v5 Host.expm1,
    TRef.nullary main_call1.cst_2 (constant S_ .f32 0x3F800000#32),
    TRef.unary main_call1.cst_2 main_call1.v6 (broadcastInDim S100000x256 ![] bcast_S_S100000x256),
    TRef.binary main_call1.v6 main_call1.v5 main_call1.v7 mulf,
    TRef.ternary main_call1.v1 (.of main_v16) main_call1.v7 main_call1.call1.v0 select,
    binary main_v17 main_arg6 main_v18 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg7 main_v19 (broadcastInDim S1x128 ![1] bcast_S128_S1x128_1 : (⟨S128, .f32⟩ : BufTy).Contents (Elt F) → (⟨S1x128, .f32⟩ : BufTy).Contents (Elt F)),
    unary main_v19 main_v20 (broadcastInDim S100000x128 ![0, 1] bcast_S1x128_S100000x128_0_1 : (⟨S1x128, .f32⟩ : BufTy).Contents (Elt F) → (⟨S100000x128, .f32⟩ : BufTy).Contents (Elt F)),
    binary main_v18 main_v20 main_v21 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v21) main_call2.v0 main_call2.v1 (cmpf .ogt),
    TRef.nullary main_call2.cst_0 (constant S_ .f32 0x00000000#32),
    TRef.unary main_call2.cst_0 main_call2.v2 (broadcastInDim S100000x128 ![] bcast_S_S100000x128),
    TRef.binary (.of main_v21) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x128 ![] bcast_S_S100000x128),
    TRef.ternary main_call2.v3 main_call2.call0.v1 (.of main_v21) main_call2.call0.v2 select,
    TRef.unary main_call2.call0.v2 main_call2.v5 Host.expm1,
    TRef.nullary main_call2.cst_2 (constant S_ .f32 0x3F800000#32),
    TRef.unary main_call2.cst_2 main_call2.v6 (broadcastInDim S100000x128 ![] bcast_S_S100000x128),
    TRef.binary main_call2.v6 main_call2.v5 main_call2.v7 mulf,
    TRef.ternary main_call2.v1 (.of main_v21) main_call2.v7 main_call2.call1.v0 select,
    nullary main_cst (constant S_ .f32 0x00000000#32),
    unary main_cst main_v23 (broadcastInDim S400000x128 ![] bcast_S_S400000x128 : (⟨S_, .f32⟩ : BufTy).Contents (Elt F) → (⟨S400000x128, .f32⟩ : BufTy).Contents (Elt F)),
    nullary main_c_1 (constantI S_ 32 0#32),
    unary main_c_1 main_v24 (broadcastInDim S100000 ![] bcast_S_S100000 : (⟨S_, .i32⟩ : BufTy).Contents (Elt F) → (⟨S100000, .i32⟩ : BufTy).Contents (Elt F)),
    binary main_v0 main_v24 main_v25 (cmpi .slt : (⟨S100000, .i32⟩ : BufTy).Contents (Elt F) → (⟨S100000, .i32⟩ : BufTy).Contents (Elt F) → (⟨S100000, .i1⟩ : BufTy).Contents (Elt F)),
    nullary main_c_2 (constantI S_ 32 400000#32),
    unary main_c_2 main_v26 (broadcastInDim S100000 ![] bcast_S_S100000 : (⟨S_, .i32⟩ : BufTy).Contents (Elt F) → (⟨S100000, .i32⟩ : BufTy).Contents (Elt F)),
    binary main_v0 main_v26 main_v27 (addi : (⟨S100000, .i32⟩ : BufTy).Contents (Elt F) → (⟨S100000, .i32⟩ : BufTy).Contents (Elt F) → (⟨S100000, .i32⟩ : BufTy).Contents (Elt F)),
    ternary main_v25 main_v27 main_v0 main_v28 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v28 main_v29 (broadcastInDim S100000x1 ![0] bcast_S100000_S100000x1_0 : (⟨S100000, .i32⟩ : BufTy).Contents (Elt F) → (⟨S100000x1, .i32⟩ : BufTy).Contents (Elt F)),
    ternary main_v23 main_v29 main_v22 main_v30 ((fun x i u => Host.scatterAdd scatter_S400000x128_S100000x1_S100000x128_1_0_0_1 x i u) : (⟨S400000x128, .f32⟩ : BufTy).Contents (Elt F) → (⟨S100000x1, .i32⟩ : BufTy).Contents (Elt F) → (⟨S100000x128, .f32⟩ : BufTy).Contents (Elt F) → (⟨S400000x128, .f32⟩ : BufTy).Contents (Elt F)),
    binary main_arg0 main_v30 main_v31 (addf : (⟨S400000x128, .f32⟩ : BufTy).Contents (Elt F) → (⟨S400000x128, .f32⟩ : BufTy).Contents (Elt F) → (⟨S400000x128, .f32⟩ : BufTy).Contents (Elt F)) ]

set_option maxRecDepth 8192 in
/-- @main is that straight line: a call is its callee's body on the call's buffers, and sequencing is associative,
    so both sides are one chain of steps. -/
theorem main_eq (c : Dev nD) : main (F := F) c = seq ops := rfl

/-! ## What the buffers hold after the line -/

attribute [local irreducible] Host.gather Host.scatterAdd in
set_option maxRecDepth 8192 in
/-- The fold at the result buffer is `out`: each operation's result read at its own buffer is its function of its
    operands' contents, and at any other buffer what was there. -/
theorem out_eq (V : Valuation τ sig (Elt F)) :
    after ops V (main_v31 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

/-! No operation writes an argument's buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., binary_bufs_sub ..⟩

/-- At the compiled mesh, for any float values, from any memory with zero counters: every weakly fair execution of
    @main terminates with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v31) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        ∧ (r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7))) :=
  (θ_run defs _ _).mono (fun _ h c => ⟨(h c main_v31).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.RefRun

end
-- ==== Proof.RefValue.lean ====
/-
  The reference's result, entry by entry.

  The reference wraps each selection index (a negative one counts from the end of the 400000 rows), gathers the
  selected rows of the table, puts them through three dense layers (a product with the weights, plus the bias row,
  then the unit: v where v > 0, elsewhere 1 * (e^w - 1) with w the value v with its positive entries replaced by
  zero, which is e^v - 1 there), scatter-adds the resulting rows into a zero table at the wrapped indices, and adds
  the table. Read at entry (a, b) this is the table's entry plus the sum, over the selections whose wrapped index is
  a, of entry b of the three layers of the row that selection reads.
-/
import proofs.«430074_j23562190586024_3_alg».proof.Proof.RefRun
import proofs.«430074_j23562190586024_3_alg».proof.Proof.Spec
import proofs.«430074_j23562190586024_3_alg».proof.Proof.LibRowDims
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.ReferenceIdeal.RefValue

open Idealize.ShloMosaic Idealize.ShloMosaic.ValueIdx Idealize.ShloMosaic.RowDims
open Cert.ReferenceIdeal Cert.ReferenceIdeal.Gen Cert.ReferenceIdeal.RefRun

/-! ## The wrapped selection indices -/

/-- The selection indices as the gather and the scatter read them: flattened, a negative one moved up by the row
    count, and stood up again as a column. -/
def rows (sel : IVec S100000x1 32) : IVec S100000x1 32 :=
  broadcastInDim S100000x1 ![0] bcast_S100000_S100000x1_0
    (select
      (cmpi .slt (shapeCast S100000 sel shapeCasts_S100000x1_S100000)
        (broadcastInDim S100000 ![] bcast_S_S100000 (constantI S_ 32 0#32)))
      (addi (shapeCast S100000 sel shapeCasts_S100000x1_S100000)
        (broadcastInDim S100000 ![] bcast_S_S100000 (constantI S_ 32 400000#32)))
      (shapeCast S100000 sel shapeCasts_S100000x1_S100000))

/-- The flattened column at r is the column at (r, 0): both have row-major position r. -/
theorem flat_apply (sel : IVec S100000x1 32) (r : Fin 100000) :
    shapeCast S100000 sel shapeCasts_S100000x1_S100000 (ix1 r) = sel (ix2 r (0 : Fin 1)) :=
  shapeCast_apply sel shapeCasts_S100000x1_S100000 (ix1 r) (ix2 r (0 : Fin 1)) (by
    rw [Shape.rowMajor_val_two, Shape.rowMajor_val_one]
    show r.val * 1 + 0 = r.val
    omega)

/-- The index the gather and the scatter read for selection r is the wrapped selection index. -/
theorem rows_apply (sel : IVec S100000x1 32) (r : Fin 100000) :
    rows sel (ix2 r (0 : Fin 1)) = Cert.Spec.wrap (sel (ix2 r (0 : Fin 1))) := by
  unfold rows
  refine (broadcastInDim_apply ![0] bcast_S100000_S100000x1_0 _ (ix2 r (0 : Fin 1)) (ix1 r) ?_).trans ?_
  · intro a
    fin_cases a
    show r.val = if (100000 : ℕ) = 1 then 0 else r.val
    simp
  · show Scalar.select (IntOp.cmpi .slt (shapeCast S100000 sel shapeCasts_S100000x1_S100000 (ix1 r)) 0#32)
        (IntOp.addi (shapeCast S100000 sel shapeCasts_S100000x1_S100000 (ix1 r)) 400000#32)
        (shapeCast S100000 sel shapeCasts_S100000x1_S100000 (ix1 r)) = _
    rw [flat_apply]
    rfl

/-! ## The gathered rows -/

theorem gather_eq : gather_S400000x128_S100000x1_S100000x128_1_0_n_n_0_1_1128
    = rowGather 400000 128 100000 gather_S400000x128_S100000x1_S100000x128_1_0_n_n_0_1_1128_wf := rfl

/-- The gathered array at (r, c) is the table at the row the r-th index selects, column c. -/
theorem gathered_apply (x : FVec Ideal S400000x128 .f32) (idx : IVec S100000x1 32) (r : Fin 100000) (c : Fin 128) :
    Host.gather gather_S400000x128_S100000x1_S100000x128_1_0_n_n_0_1_1128 x idx (ix2 r c)
      = x (ix2 (Cert.Spec.rowOf (idx (ix2 r (0 : Fin 1)))) c) := by
  rw [gather_eq]
  exact rowGather_apply (by decide) _ x idx r c

/-! ## The unit -/

/-- The unit as the reference spells it, on one extended real: where the value is not positive the inner select keeps
    it, and 1 * (e^v - 1) is e^v - 1. -/
theorem unit_eq (v : EReal) :
    Scalar.select (Ideal.cmp .ogt v (Ideal.ofBits .f32 0x00000000#32)) v
        (Ideal.ofBits .f32 0x3F800000#32
          * (Ideal.exp (Scalar.select (Ideal.cmp .ogt v (Ideal.ofBits .f32 0x00000000#32)) (Ideal.ofBits .f32 0x00000000#32) v) - 1))
      = Cert.Spec.elu v := by
  rw [Ideal.ofBits_zero_f32, Ideal.ofBits_one_f32, one_mul]
  unfold Cert.Spec.elu
  by_cases h : Ideal.cmp .ogt v 0 = 1#1
  · simp only [h, select_one]
  · simp only [eq_zero_of_ne_one h, select_zero]

theorem elu256_apply (v : FVec Ideal S100000x256 .f32) (i : S100000x256.Idx) :
    elu256 (F := Ideal) v i = Cert.Spec.elu (v i) := unit_eq (v i)

theorem elu128_apply (v : FVec Ideal S100000x128 .f32) (i : S100000x128.Idx) :
    elu128 (F := Ideal) v i = Cert.Spec.elu (v i) := unit_eq (v i)

/-! ## One layer -/

/-- A bias vector stood up as one row reads, at (0, q), the vector at q. -/
theorem row_of_vec_apply {α : Type} {n : Nat} (h1 : (⟨1, ![n]⟩ : Shape).BroadcastsInDim ⟨2, ![1, n]⟩ ![1])
    (b : (⟨1, ![n]⟩ : Shape).Idx → α) (q : Fin n) :
    broadcastInDim ⟨2, ![1, n]⟩ ![1] h1 b (ix2 (0 : Fin 1) q) = b (ix1 q) := by
  refine broadcastInDim_apply ![1] h1 b (ix2 (0 : Fin 1) q) (ix1 q) ?_
  intro a
  fin_cases a
  show q.val = if n = 1 then 0 else q.val
  split_ifs with hn
  · have := q.isLt; omega
  · rfl

/-- The affine part of a layer as the reference spells it: the product with the weights plus the bias vector stood up
    as a row and repeated down the rows. -/
def lin {K N : Nat} (D : DotDims ⟨2, ![100000, K]⟩ ⟨2, ![K, N]⟩ ⟨2, ![100000, N]⟩)
    (h1 : (⟨1, ![N]⟩ : Shape).BroadcastsInDim ⟨2, ![1, N]⟩ ![1])
    (h2 : (⟨2, ![1, N]⟩ : Shape).BroadcastsInDim ⟨2, ![100000, N]⟩ ![0, 1])
    (a : FVec Ideal ⟨2, ![100000, K]⟩ .f32) (W : FVec Ideal ⟨2, ![K, N]⟩ .f32) (b : FVec Ideal ⟨1, ![N]⟩ .f32) :
    FVec Ideal ⟨2, ![100000, N]⟩ .f32 :=
  addf (Host.dotGeneral D none a W)
    (broadcastInDim ⟨2, ![100000, N]⟩ ![0, 1] h2 (broadcastInDim ⟨2, ![1, N]⟩ ![1] h1 b))

/-- The affine part at (r, q): the sum over the contracted coordinate of row r of the input times column q of the
    weights, plus the bias at q. -/
theorem lin_apply {K N : Nat} (D : DotDims ⟨2, ![100000, K]⟩ ⟨2, ![K, N]⟩ ⟨2, ![100000, N]⟩)
    (hD : D = DotDims.plain 100000 K N)
    (h1 : (⟨1, ![N]⟩ : Shape).BroadcastsInDim ⟨2, ![1, N]⟩ ![1])
    (h2 : (⟨2, ![1, N]⟩ : Shape).BroadcastsInDim ⟨2, ![100000, N]⟩ ![0, 1])
    (a : FVec Ideal ⟨2, ![100000, K]⟩ .f32) (W : FVec Ideal ⟨2, ![K, N]⟩ .f32) (b : FVec Ideal ⟨1, ![N]⟩ .f32)
    (r : Fin 100000) (q : Fin N) :
    lin D h1 h2 a W b (ix2 r q) = (∑ k : Fin K, a (ix2 r k) * W (ix2 k q)) + b (ix1 q) := by
  subst hD
  unfold lin
  rw [addf_apply, broadcastInDim_oneRow_apply, row_of_vec_apply]
  refine congrArg (· + b (ix1 q)) ?_
  exact dotGeneral_plain_apply none .single a W r q

theorem dot1_eq : dot_S100000x128_S128x256_S100000x256_1_0_0_1_n_n = DotDims.plain 100000 128 256 := rfl
theorem dot2_eq : dot_S100000x256_S256x256_S100000x256_1_0_0_1_n_n = DotDims.plain 100000 256 256 := rfl
theorem dot3_eq : dot_S100000x256_S256x128_S100000x128_1_0_0_1_n_n = DotDims.plain 100000 256 128 := rfl

/-- A layer of width 256 at (r, q) is the dense layer of row r of its input, at q. -/
theorem layer256_apply {K : Nat} (D : DotDims ⟨2, ![100000, K]⟩ ⟨2, ![K, 256]⟩ ⟨2, ![100000, 256]⟩)
    (hD : D = DotDims.plain 100000 K 256)
    (h1 : (⟨1, ![256]⟩ : Shape).BroadcastsInDim ⟨2, ![1, 256]⟩ ![1])
    (h2 : (⟨2, ![1, 256]⟩ : Shape).BroadcastsInDim ⟨2, ![100000, 256]⟩ ![0, 1])
    (a : FVec Ideal ⟨2, ![100000, K]⟩ .f32) (W : FVec Ideal ⟨2, ![K, 256]⟩ .f32) (b : FVec Ideal ⟨1, ![256]⟩ .f32)
    (r : Fin 100000) (q : Fin 256) :
    elu256 (F := Ideal) (lin D h1 h2 a W b) (ix2 r q)
      = Cert.Spec.dense (Cert.Spec.mat W) (Cert.Spec.vec b) (fun k => a (ix2 r k)) q := by
  rw [elu256_apply, lin_apply D hD]
  rfl

/-- A layer of width 128 at (r, q) is the dense layer of row r of its input, at q. -/
theorem layer128_apply {K : Nat} (D : DotDims ⟨2, ![100000, K]⟩ ⟨2, ![K, 128]⟩ ⟨2, ![100000, 128]⟩)
    (hD : D = DotDims.plain 100000 K 128)
    (h1 : (⟨1, ![128]⟩ : Shape).BroadcastsInDim ⟨2, ![1, 128]⟩ ![1])
    (h2 : (⟨2, ![1, 128]⟩ : Shape).BroadcastsInDim ⟨2, ![100000, 128]⟩ ![0, 1])
    (a : FVec Ideal ⟨2, ![100000, K]⟩ .f32) (W : FVec Ideal ⟨2, ![K, 128]⟩ .f32) (b : FVec Ideal ⟨1, ![128]⟩ .f32)
    (r : Fin 100000) (q : Fin 128) :
    elu128 (F := Ideal) (lin D h1 h2 a W b) (ix2 r q)
      = Cert.Spec.dense (Cert.Spec.mat W) (Cert.Spec.vec b) (fun k => a (ix2 r k)) q := by
  rw [elu128_apply, lin_apply D hD]
  rfl

/-! ## The update rows -/

/-- The rows the reference scatters: the three layers of the gathered rows. -/
def upd (x : FVec Ideal S400000x128 .f32) (sel : IVec S100000x1 32) (W0 : FVec Ideal S128x256 .f32) (b0 : FVec Ideal S256 .f32)
    (W1 : FVec Ideal S256x256 .f32) (b1 : FVec Ideal S256 .f32) (W2 : FVec Ideal S256x128 .f32) (b2 : FVec Ideal S128 .f32) :
    FVec Ideal S100000x128 .f32 :=
  elu128 (lin dot_S100000x256_S256x128_S100000x128_1_0_0_1_n_n bcast_S128_S1x128_1 bcast_S1x128_S100000x128_0_1
    (elu256 (lin dot_S100000x256_S256x256_S100000x256_1_0_0_1_n_n bcast_S256_S1x256_1 bcast_S1x256_S100000x256_0_1
      (elu256 (lin dot_S100000x128_S128x256_S100000x256_1_0_0_1_n_n bcast_S256_S1x256_1 bcast_S1x256_S100000x256_0_1
        (Host.gather gather_S400000x128_S100000x1_S100000x128_1_0_n_n_0_1_1128 x (rows sel)) W0 b0))
      W1 b1))
    W2 b2)

/-- Update row r at q is the three layers of the table row that selection r reads, at q. -/
theorem upd_apply (x : FVec Ideal S400000x128 .f32) (sel : IVec S100000x1 32) (W0 : FVec Ideal S128x256 .f32)
    (b0 : FVec Ideal S256 .f32) (W1 : FVec Ideal S256x256 .f32) (b1 : FVec Ideal S256 .f32) (W2 : FVec Ideal S256x128 .f32)
    (b2 : FVec Ideal S128 .f32) (r : Fin 100000) (q : Fin 128) :
    upd x sel W0 b0 W1 b1 W2 b2 (ix2 r q)
      = Cert.Spec.upRow x W0 b0 W1 b1 W2 b2 (Cert.Spec.wrap (sel (ix2 r (0 : Fin 1)))) q := by
  unfold upd
  rw [layer128_apply _ dot3_eq]
  unfold Cert.Spec.upRow Cert.Spec.mlp
  refine congrArg (fun u => Cert.Spec.dense (Cert.Spec.mat W2) (Cert.Spec.vec b2) u q) ?_
  funext k
  rw [layer256_apply _ dot2_eq]
  refine congrArg (fun u => Cert.Spec.dense (Cert.Spec.mat W1) (Cert.Spec.vec b1) u k) ?_
  funext k'
  rw [layer256_apply _ dot1_eq]
  refine congrArg (fun u => Cert.Spec.dense (Cert.Spec.mat W0) (Cert.Spec.vec b0) u k') ?_
  funext k''
  rw [gathered_apply, rows_apply]

/-! ## The result -/

/-- The result term is the table plus the scatter-add, into zeros at the wrapped indices, of the update rows. -/
theorem out_spelt (x : FVec Ideal S400000x128 .f32) (sel : IVec S100000x1 32) (W0 : FVec Ideal S128x256 .f32)
    (b0 : FVec Ideal S256 .f32) (W1 : FVec Ideal S256x256 .f32) (b1 : FVec Ideal S256 .f32) (W2 : FVec Ideal S256x128 .f32)
    (b2 : FVec Ideal S128 .f32) :
    out (F := Ideal) x sel W0 b0 W1 b1 W2 b2
      = addf x (Host.scatterAdd scatter_S400000x128_S100000x1_S100000x128_1_0_0_1
          (broadcastInDim S400000x128 ![] bcast_S_S400000x128 (constant (F := Ideal) S_ .f32 0x00000000#32)) (rows sel)
          (upd x sel W0 b0 W1 b1 W2 b2)) := rfl

theorem scatter_eq : scatter_S400000x128_S100000x1_S100000x128_1_0_0_1
    = rowScatter 400000 128 100000 scatter_S400000x128_S100000x1_S100000x128_1_0_0_1_wf := rfl

/-- Entry (a, b) of the reference's result is the specification's. -/
theorem out_apply (x : FVec Ideal S400000x128 .f32) (sel : IVec S100000x1 32) (W0 : FVec Ideal S128x256 .f32)
    (b0 : FVec Ideal S256 .f32) (W1 : FVec Ideal S256x256 .f32) (b1 : FVec Ideal S256 .f32) (W2 : FVec Ideal S256x128 .f32)
    (b2 : FVec Ideal S128 .f32) (a : Fin 400000) (b : Fin 128) :
    Cert.ReferenceIdeal.RefRun.out (F := Ideal) x sel W0 b0 W1 b1 W2 b2 (ix2 a b)
      = Cert.Spec.resultAt x sel W0 b0 W1 b1 W2 b2 a b := by
  rw [out_spelt, addf_apply]
  unfold Cert.Spec.resultAt
  refine congrArg (x (ix2 a b) + ·) ?_
  show Ideal.hostScatterAdd scatter_S400000x128_S100000x1_S100000x128_1_0_0_1
      (broadcastInDim S400000x128 ![] bcast_S_S400000x128 (constant (F := Ideal) S_ .f32 0x00000000#32)) (rows sel)
      (upd x sel W0 b0 W1 b1 W2 b2) (ix2 a b) = _
  rw [scatter_eq, rowScatterAdd_apply]
  show Ideal.ofBits .f32 0x00000000#32 + _ = _
  rw [Ideal.ofBits_zero_f32, zero_add]
  refine Finset.sum_congr rfl fun r _ => ?_
  rw [rows_apply, upd_apply]

end Cert.ReferenceIdeal.RefValue

end
-- ==== Proof.RefSide.lean ====
/-
  The reference's run, posted at the specification: the result buffer ends holding, entry by entry, the table's entry
  plus the sum over the selections that land on that row of the three layers of the row each reads; the argument
  buffers end as launched.
-/
import proofs.«430074_j23562190586024_3_alg».proof.Proof.RefRun
import proofs.«430074_j23562190586024_3_alg».proof.Proof.RefValue
import proofs.«430074_j23562190586024_3_alg».proof.Proof.Spec

noncomputable section

namespace Cert.ReferenceIdeal.Side

open Cert.ReferenceIdeal Cert.ReferenceIdeal.Gen Idealize.ShloMosaic Idealize.ShloMosaic.TcCoe Idealize.SL.Sem
open Idealize.ShloMosaic.ValueIdx

/-- The reference's result term is the specification's array: they agree at every entry (a, b). -/
theorem out_result (x : FVec Ideal S400000x128 .f32) (sel : IVec S100000x1 32) (W0 : FVec Ideal S128x256 .f32)
    (b0 : FVec Ideal S256 .f32) (W1 : FVec Ideal S256x256 .f32) (b1 : FVec Ideal S256 .f32) (W2 : FVec Ideal S256x128 .f32)
    (b2 : FVec Ideal S128 .f32) :
    Cert.ReferenceIdeal.RefRun.out (F := Ideal) x sel W0 b0 W1 b1 W2 b2 = Cert.Spec.result x sel W0 b0 W1 b1 W2 b2 := by
  funext i
  obtain ⟨a, b, rfl⟩ : ∃ (a : Fin 400000) (b : Fin 128), i = ix2 a b := ⟨i 0, i 1, eq_ix2 i⟩
  exact (Cert.ReferenceIdeal.RefValue.out_apply x sel W0 b0 W1 b1 W2 b2 a b).trans
    (Cert.Spec.result_apply x sel W0 b0 W1 b1 W2 b2 a b).symm

/-- Every run of the reference ends with the result buffer at the specification's array of the launch contents of the
    argument buffers, and with the argument buffers as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v31) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        ∧ (r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7))) :=
  (θ_run defs _ _).mono (fun _ h c => ⟨(h c).1.trans (out_result _ _ _ _ _ _ _ _), (h c).2⟩)
    (Cert.ReferenceIdeal.RefRun.run (F := Ideal) m ρ)

end Cert.ReferenceIdeal.Side

end
-- ==== Proof.lean ====
/-
  A gather, three dense layers with the exponential linear unit, and a scatter-add back into the table.

  Both programs select 100000 rows of a 400000 × 128 table by index (a negative index counting from the end, the row
  read being the index clamped into the table), send each selected row `a` through
  `a ↦ elu (elu (elu (a·W0 + b0)·W1 + b1)·W2 + b2)`, with `elu v = v` for `v > 0` and `eᵛ − 1` otherwise, and add the
  resulting row to the table at the selection's index (nowhere, when that is not a row of the table).

  The kernel program pads the selection to 102400 = 25 · 4096 rows — with index 0 for the gather, and with index
  400000, one past the last row, for the scatter —, computes the layers on blocks of 4096 rows (the weights narrowed
  to a shorter float format first, which on extended reals is the identity; `eᵛ − 1` written with the exponential),
  and scatter-adds all 102400 output rows into the table itself. The reference scatter-adds the 100000 output rows
  into a table of zeros and adds the table (its unit written `1 · expm1` of `v` with the positive entries zeroed).

  On the extended reals the two results are one function, `Cert.Spec.result`: the scatter-add gives each entry the
  table's entry plus the sum of the update entries landing on it; the 2400 padding rows land nowhere, so the
  kernel's sum over 102400 rows is the reference's over 100000; row by row the updates agree because the products
  are the same sums and `expm1 v = eᵛ − 1`, `1 · y = y`, `0 + s = s`. Only commutative-monoid laws of `+` and the
  unit laws are used, so the precondition (finite inputs) is never opened.

  The three frames are the generated frame of each kernel program and, for the reference, its run with the result
  dropped; nothing was rewritten by the idealization, so its soundness conjunct is `True`.
-/
import proofs.«430074_j23562190586024_3_alg».proof.Defs
import proofs.«430074_j23562190586024_3_alg».proof.Proof.Gen.Kernel
import proofs.«430074_j23562190586024_3_alg».proof.Proof.Gen.Kernel.Skeleton
import proofs.«430074_j23562190586024_3_alg».proof.Proof.Gen.Kernel.Launch
import proofs.«430074_j23562190586024_3_alg».proof.Proof.Gen.Kernel.Points
import proofs.«430074_j23562190586024_3_alg».proof.Proof.Gen.Kernel.Frame
import proofs.«430074_j23562190586024_3_alg».proof.Proof.Gen.KernelIdeal
import proofs.«430074_j23562190586024_3_alg».proof.Proof.Gen.KernelIdeal.Skeleton
import proofs.«430074_j23562190586024_3_alg».proof.Proof.Gen.KernelIdeal.Launch
import proofs.«430074_j23562190586024_3_alg».proof.Proof.Gen.KernelIdeal.Points
import proofs.«430074_j23562190586024_3_alg».proof.Proof.Gen.KernelIdeal.Frame
import proofs.«430074_j23562190586024_3_alg».proof.Proof.Gen.ReferenceIdeal
import proofs.«430074_j23562190586024_3_alg».proof.Proof.Gen.Pre_finite_inputs
import proofs.«430074_j23562190586024_3_alg».proof.Proof.KRun
import proofs.«430074_j23562190586024_3_alg».proof.Proof.RefSide
import Idealize.ShloMosaic.Adequacy
import Idealize.ShloMosaic.Init

noncomputable section

namespace Cert.Proof

open Idealize.ShloMosaic Idealize.SL.Sem

/-- The word-level kernel program runs and leaves its arguments unchanged: its generated frame. -/
theorem frame_k : @Cert.frame_Kernel Cert.Kernel.Gen.facts Cert.Pre_finite_inputs.Gen.facts :=
  fun m ρ _ => Cert.Kernel.Gen.frame m ρ

/-- So does the idealized kernel program. -/
theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Side.run m ρ)

/-- From memories agreeing on the arguments both programs end with the result buffer at the spec's table of the
    kernel's argument arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Side.run m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
